-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S16x32 : Shape := ⟨2, ![16, 32]⟩
abbrev S16 : Shape := ⟨1, ![16]⟩
abbrev S2x16 : Shape := ⟨2, ![2, 16]⟩
abbrev S2 : Shape := ⟨1, ![2]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S16x32 : S_.BroadcastsInDim S16x32 (![] : Fin 0 → Fin S16x32.rank)
  reducesTo_S16x32_S_d0_1 : S16x32.ReducesTo [0, 1] S_
  bcast_S_S16 : S_.BroadcastsInDim S16 (![] : Fin 0 → Fin S16.rank)
  reducesTo_S16_S_d0 : S16.ReducesTo [0] S_
  bcast_S_S2x16 : S_.BroadcastsInDim S2x16 (![] : Fin 0 → Fin S2x16.rank)
  reducesTo_S2x16_S_d0_1 : S2x16.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2x16 .f32) (main_arg6 : FVec F S2x16 .f32) (main_arg7 : FVec F S2 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S2x16 .f32 := Host.absf main_arg5
  let main_cst_6 : FVec F S_ .f32 := constant S_ .f32 0x7F800000#32
  let main_v20 : FVec F S2x16 .f32 := broadcastInDim S2x16 ![] bcast_S_S2x16 main_cst_6
  let main_v21 : IVec S2x16 1 := cmpf .olt main_v19 main_v20
  let main_c_7 : IVec S_ 1 := constantI S_ 1 1#1
  let main_v22 : IVec S_ 1 := (fun x v => Host.reduce IntOp.andi x v reducesTo_S2x16_S_d0_1 h_S_) main_v21 main_c_7
  let main_v23 : IVec S_ 1 := andi main_v18 main_v22
  let main_v24 : FVec F S2x16 .f32 := Host.absf main_arg6
  let main_cst_8 : FVec F S_ .f32 := constant S_ .f32 0x7F800000#32
  let main_v25 : FVec F S2x16 .f32 := broadcastInDim S2x16 ![] bcast_S_S2x16 main_cst_8
  let main_v26 : IVec S2x16 1 := cmpf .olt main_v24 main_v25
  let main_c_9 : IVec S_ 1 := constantI S_ 1 1#1
  let main_v27 : IVec S_ 1 := (fun x v => Host.reduce IntOp.andi x v reducesTo_S2x16_S_d0_1 h_S_) main_v26 main_c_9
  let main_v28 : IVec S_ 1 := andi main_v23 main_v27
  let main_v29 : FVec F S2 .f32 := Host.absf main_arg7
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S100000x32 .f32) (main_arg1 : IVec S2x1600000 32) (main_arg2 : FVec F S16x32 .f32) (main_arg3 : FVec F S16x32 .f32) (main_arg4 : FVec F S16 .f32) (main_arg5 : FVec F S2x16 .f32) (main_arg6 : FVec F S2x16 .f32) (main_arg7 : FVec F S2 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S16x32 .f32 := Host.absf main_arg2
  let main_cst_0 : FVec F S_ .f32 := constant S_ .f32 0x7F800000#32
  let main_v5 : FVec F S16x32 .f32 := broadcastInDim S16x32 ![] bcast_S_S16x32 main_cst_0
  let main_v6 : IVec S16x32 1 := cmpf .olt main_v4 main_v5
  let main_c_1 : IVec S_ 1 := constantI S_ 1 1#1
  let main_v7 : IVec S_ 1 := (fun x v => Host.reduce IntOp.andi x v reducesTo_S16x32_S_d0_1 h_S_) main_v6 main_c_1
  let main_v8 : IVec S_ 1 := andi main_v3 main_v7
  let main_v9 : FVec F S16x32 .f32 := Host.absf main_arg3
  let main_cst_2 : FVec F S_ .f32 := constant S_ .f32 0x7F800000#32
  let main_v10 : FVec F S16x32 .f32 := broadcastInDim S16x32 ![] bcast_S_S16x32 main_cst_2
  let main_v11 : IVec S16x32 1 := cmpf .olt main_v9 main_v10
  let main_c_3 : IVec S_ 1 := constantI S_ 1 1#1
  let main_v12 : IVec S_ 1 := (fun x v => Host.reduce IntOp.andi x v reducesTo_S16x32_S_d0_1 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg5 main_arg6 main_arg7 main_v13 main_v16
-- ==== Kernel.lean ====
abbrev S100000x32 : Shape := ⟨2, ![100000, 32]⟩
abbrev S2x1600000 : Shape := ⟨2, ![2, 1600000]⟩
abbrev S16x32 : Shape := ⟨2, ![16, 32]⟩
abbrev S16 : Shape := ⟨1, ![16]⟩
abbrev S2x16 : Shape := ⟨2, ![2, 16]⟩
abbrev S2 : Shape := ⟨1, ![2]⟩
abbrev S1x1600000 : Shape := ⟨2, ![1, 1600000]⟩
abbrev S1600000 : Shape := ⟨1, ![1600000]⟩
abbrev S100000x16 : Shape := ⟨2, ![100000, 16]⟩
abbrev S10000x32 : Shape := ⟨2, ![10000, 32]⟩
abbrev S10000x16 : Shape := ⟨2, ![10000, 16]⟩
abbrev S32x16 : Shape := ⟨2, ![32, 16]⟩
abbrev S_ : Shape := ⟨0, ![]⟩
abbrev S1600000x1 : Shape := ⟨2, ![1600000, 1]⟩
abbrev S1600000x16 : Shape := ⟨2, ![1600000, 16]⟩
abbrev S1x16 : Shape := ⟨2, ![1, 16]⟩
abbrev S100000x2 : Shape := ⟨2, ![100000, 2]⟩
abbrev S10000x2 : Shape := ⟨2, ![10000, 2]⟩
abbrev S16x2 : Shape := ⟨2, ![16, 2]⟩
abbrev S1600000x2 : Shape := ⟨2, ![1600000, 2]⟩
abbrev S1x2 : Shape := ⟨2, ![1, 2]⟩

abbrev nBuf : Space → Nat
  | .hbm => 46
  | .vmem => 30
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S16x32, .f32⟩
  | .hbm, ⟨3, _⟩ => ⟨S16x32, .f32⟩
  | .hbm, ⟨4, _⟩ => ⟨S16, .f32⟩
  | .hbm, ⟨5, _⟩ => ⟨S2x16, .f32⟩
  | .hbm, ⟨6, _⟩ => ⟨S2x16, .f32⟩
  | .hbm, ⟨7, _⟩ => ⟨S2, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S100000x16, .f32⟩
  | .hbm, ⟨13, _⟩ => ⟨S100000x16, .f32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x16, .f32⟩
  | .hbm, ⟨23, _⟩ => ⟨S_, .f32⟩
  | .hbm, ⟨24, _⟩ => ⟨S100000x16, .f32⟩
  | .hbm, ⟨25, _⟩ => ⟨S1600000x1, .i32⟩
  | .hbm, ⟨26, _⟩ => ⟨S100000x16, .f32⟩
  | .hbm, ⟨27, _⟩ => ⟨S1x16, .f32⟩
  | .hbm, ⟨28, _⟩ => ⟨S100000x16, .f32⟩
  | .hbm, ⟨29, _⟩ => ⟨S100000x2, .f32⟩
  | .hbm, ⟨30, _⟩ => ⟨S100000x2, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x2, .f32⟩
  | .hbm, ⟨40, _⟩ => ⟨S_, .f32⟩
  | .hbm, ⟨41, _⟩ => ⟨S100000x2, .f32⟩
  | .hbm, ⟨42, _⟩ => ⟨S1600000x1, .i32⟩
  | .hbm, ⟨43, _⟩ => ⟨S100000x2, .f32⟩
  | .hbm, ⟨44, _⟩ => ⟨S1x2, .f32⟩
  | .hbm, ⟨45, _⟩ => ⟨S100000x2, .f32⟩
  | .local _ .vmem, ⟨0, _⟩ => ⟨S10000x32, .f32⟩
  | .local _ .vmem, ⟨1, _⟩ => ⟨S10000x32, .f32⟩
  | .local _ .vmem, ⟨2, _⟩ => ⟨S16x32, .f32⟩
  | .local _ .vmem, ⟨3, _⟩ => ⟨S16x32, .f32⟩
  | .local _ .vmem, ⟨4, _⟩ => ⟨S10000x16, .f32⟩
  | .local _ .vmem, ⟨5, _⟩ => ⟨S10000x16, .f32⟩
  | .local _ .vmem, ⟨6, _⟩ => ⟨S10000x16, .f32⟩
  | .local _ .vmem, ⟨7, _⟩ => ⟨S10000x16, .f32⟩
  | .local _ .vmem, ⟨8, _⟩ => ⟨S10000x16, .f32⟩
  | .local _ .vmem, ⟨9, _⟩ => ⟨S10000x16, .f32⟩
  | .local _ .vmem, ⟨10, _⟩ => ⟨S10000x16, .f32⟩
  | .local _ .vmem, ⟨11, _⟩ => ⟨S10000x16, .f32⟩
  | .local _ .vmem, ⟨12, _⟩ => ⟨S1x16, .f32⟩
  | .local _ .vmem, ⟨13, _⟩ => ⟨S10000x16, .f32⟩
  | .local _ .vmem, ⟨14, _⟩ => ⟨S10000x16, .f32⟩
  | .local _ .vmem, ⟨15, _⟩ => ⟨S10000x16, .f32⟩
  | .local _ .vmem, ⟨16, _⟩ => ⟨S10000x16, .f32⟩
  | .local _ .vmem, ⟨17, _⟩ => ⟨S2x16, .f32⟩
  | .local _ .vmem, ⟨18, _⟩ => ⟨S2x16, .f32⟩
  | .local _ .vmem, ⟨19, _⟩ => ⟨S10000x2, .f32⟩
  | .local _ .vmem, ⟨20, _⟩ => ⟨S10000x2, .f32⟩
  | .local _ .vmem, ⟨21, _⟩ => ⟨S10000x2, .f32⟩
  | .local _ .vmem, ⟨22, _⟩ => ⟨S10000x2, .f32⟩
  | .local _ .vmem, ⟨23, _⟩ => ⟨S10000x2, .f32⟩
  | .local _ .vmem, ⟨24, _⟩ => ⟨S10000x2, .f32⟩
  | .local _ .vmem, ⟨25, _⟩ => ⟨S10000x2, .f32⟩
  | .local _ .vmem, ⟨26, _⟩ => ⟨S10000x2, .f32⟩
  | .local _ .vmem, ⟨27, _⟩ => ⟨S1x2, .f32⟩
  | .local _ .vmem, ⟨28, _⟩ => ⟨S10000x2, .f32⟩
  | .local _ .vmem, ⟨29, _⟩ => ⟨S10000x2, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17_0 : Ref sig .tc := ⟨.hbm, 29, rfl⟩
abbrev main_v17_1 : Ref sig .tc := ⟨.hbm, 30, rfl⟩
abbrev main_c_1 : Ref sig .tc := ⟨.hbm, 31, rfl⟩
abbrev main_v18 : Ref sig .tc := ⟨.hbm, 32, rfl⟩
abbrev main_v19 : Ref sig .tc := ⟨.hbm, 33, rfl⟩
abbrev main_c_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc2_stg4_0 : Ref sig .tc := ⟨.vmem, 21, rfl⟩
abbrev cc2_stg4_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem3_1 : DmaSem sig := 20
abbrev cc2_sem4_0 : DmaSem sig := 21
abbrev cc2_sem4_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem3_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S10000x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S2x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x2 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S10000x2 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x2 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x2 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x2 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x2 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S10000x32_S10000x32_0_0 : ∀ a, (![0, 0] : Fin 2 → Nat) a + S10000x32.size a ≤ S10000x32.size a
  h_S10000x32 : 0 < S10000x32.numel
  inb_S16x32_S16x32_0_0 : ∀ a, (![0, 0] : Fin 2 → Nat) a + S16x32.size a ≤ S16x32.size a
  h_S16x32 : 0 < S16x32.numel
  transposes_S16x32_p1_0_S32x16 : S16x32.Transposes [1, 0] S32x16
  inb_S10000x16_S10000x16_0_0 : ∀ a, (![0, 0] : Fin 2 → Nat) a + S10000x16.size a ≤ S10000x16.size a
  h_S10000x16 : 0 < S10000x16.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x16 : S_.BroadcastsInDim S100000x16 (![] : Fin 0 → Fin S100000x16.rank)
  shapeCasts_S16_S1x16 : S16.ShapeCasts S1x16
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S2x16_S2x16_0_0 : ∀ a, (![0, 0] : Fin 2 → Nat) a + S2x16.size a ≤ S2x16.size a
  h_S2x16 : 0 < S2x16.numel
  transposes_S2x16_p1_0_S16x2 : S2x16.Transposes [1, 0] S16x2
  inb_S10000x2_S10000x2_0_0 : ∀ a, (![0, 0] : Fin 2 → Nat) a + S10000x2.size a ≤ S10000x2.size a
  h_S10000x2 : 0 < S10000x2.numel
  bcast_S_S100000x2 : S_.BroadcastsInDim S100000x2 (![] : Fin 0 → Fin S100000x2.rank)
  shapeCasts_S2_S1x2 : S2.ShapeCasts S1x2
  shapeCasts_S10000x2_S10000x2 : S10000x2.ShapeCasts S10000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S10000x2 : S1x2.Broadcasts S10000x2
  dot_S10000x32_S32x16_S10000x16_1_0_0_1_n_n_wf : DotDims.WF S10000x32 S32x16 S10000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  dot_S10000x16_S16x2_S10000x2_1_0_0_1_n_n_wf : DotDims.WF S10000x16 S16x2 S10000x2 [1] [0] [0] [1] [] []
  gather_S100000x2_S1600000x1_S1600000x2_1_0_n_n_0_1_12_wf : GatherDims.WF S100000x2 S1600000x1 S1600000x2 [1] [0] [] [0] [] 1 ![1, 2]
  scatter_S100000x2_S1600000x1_S1600000x2_1_0_0_1_wf : ScatterDims.WF S100000x2 S1600000x1 S1600000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x32.size a ≤ S100000x32.size a
  hwx0_0 : ∀ i : grid0.Coords, EltTy.bits .f32 = 32 ∨ (Rect.block (s := S100000x32) S10000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x32.size a ≤ S16x32.size a
  hwx0_1 : ∀ i : grid0.Coords, EltTy.bits .f32 = 32 ∨ (Rect.block (s := S16x32) S16x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x32.size a ≤ S16x32.size a
  hwx0_2 : ∀ i : grid0.Coords, EltTy.bits .f32 = 32 ∨ (Rect.block (s := S16x32) S16x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x16.size a ≤ S100000x16.size a
  hwx0_3 : ∀ i : grid0.Coords, EltTy.bits .f32 = 32 ∨ (Rect.block (s := S100000x16) S10000x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x16.size a ≤ S100000x16.size a
  hwx0_4 : ∀ i : grid0.Coords, EltTy.bits .f32 = 32 ∨ (Rect.block (s := S100000x16) S10000x16.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x16.size a ≤ S100000x16.size a
  hwx1_1 : ∀ i : grid1.Coords, EltTy.bits .f32 = 32 ∨ (Rect.block (s := S100000x16) S10000x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x16.size a ≤ S100000x16.size a
  hwx1_3 : ∀ i : grid1.Coords, EltTy.bits .f32 = 32 ∨ (Rect.block (s := S100000x16) S10000x16.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S100000x16.size a
  hwx2_0 : ∀ i : grid2.Coords, EltTy.bits .f32 = 32 ∨ (Rect.block (s := S100000x16) S10000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2x16.size a ≤ S2x16.size a
  hwx2_1 : ∀ i : grid2.Coords, EltTy.bits .f32 = 32 ∨ (Rect.block (s := S2x16) S2x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S2x16.size a ≤ S2x16.size a
  hwx2_2 : ∀ i : grid2.Coords, EltTy.bits .f32 = 32 ∨ (Rect.block (s := S2x16) S2x16.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x2.size a ≤ S100000x2.size a
  hwx2_3 : ∀ i : grid2.Coords, EltTy.bits .f32 = 32 ∨ (Rect.block (s := S100000x2) S10000x2.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x2.size a ≤ S100000x2.size a
  hwx2_4 : ∀ i : grid2.Coords, EltTy.bits .f32 = 32 ∨ (Rect.block (s := S100000x2) S10000x2.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x2.size a ≤ S100000x2.size a
  hwx3_0 : ∀ i : grid3.Coords, EltTy.bits .f32 = 32 ∨ (Rect.block (s := S100000x2) S10000x2.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x2.size a ≤ S100000x2.size a
  hwx3_1 : ∀ i : grid3.Coords, EltTy.bits .f32 = 32 ∨ (Rect.block (s := S100000x2) S10000x2.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x2.size a ≤ S1x2.size a
  hwx3_2 : ∀ i : grid3.Coords, EltTy.bits .f32 = 32 ∨ (Rect.block (s := S1x2) S1x2.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x2.size a ≤ S100000x2.size a
  hwx3_3 : ∀ i : grid3.Coords, EltTy.bits .f32 = 32 ∨ (Rect.block (s := S100000x2) S10000x2.size (cc3_transform_3 i) (hinb3_3 i)).WholeWords (EltTy.packing .f32)

variable [Facts₀]

def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def dot_S10000x16_S16x2_S10000x2_1_0_0_1_n_n : DotDims S10000x16 S16x2 S10000x2 where
  lhsContracting := [1]
  rhsContracting := [0]
  lhsNonContracting := [0]
  rhsNonContracting := [1]
  lhsBatch := []
  rhsBatch := []
  wf := dot_S10000x16_S16x2_S10000x2_1_0_0_1_n_n_wf
def gather_S100000x2_S1600000x1_S1600000x2_1_0_n_n_0_1_12 : GatherDims S100000x2 S1600000x1 S1600000x2 where
  offsetDims := [1]
  collapsedSliceDims := [0]
  operandBatchingDims := []
  startIndicesBatchingDims := []
  startIndexMap := [0]
  indexVectorDim := 1
  sliceSizes := ![1, 2]
  wf := gather_S100000x2_S1600000x1_S1600000x2_1_0_n_n_0_1_12_wf
def scatter_S100000x2_S1600000x1_S1600000x2_1_0_0_1 : ScatterDims S100000x2 S1600000x1 S1600000x2 where
  updateWindowDims := [1]
  insertedWindowDims := [0]
  scatterDimsToOperandDims := [0]
  indexVectorDim := 1
  wf := scatter_S100000x2_S1600000x1_S1600000x2_1_0_0_1_wf

abbrev win0_0 : Pipeline.Window sig grid0 :=
  Pipeline.Window.ofSpec (Memref.whole main_arg0) S10000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S16x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4_0) S10000x16.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_1) S10000x16.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v14) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4_1) S10000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S10000x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v16) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S2x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S2x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v17_0) S10000x2.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v17_1) S10000x2.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v27) S10000x2.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v17_1) S10000x2.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v28) S1x2.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v29) S10000x2.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S16x32 : Shape := ⟨2, ![16, 32]⟩
abbrev S16 : Shape := ⟨1, ![16]⟩
abbrev S2x16 : Shape := ⟨2, ![2, 16]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x32 : Shape := ⟨2, ![1600000, 32]⟩
abbrev S32x16 : Shape := ⟨2, ![32, 16]⟩
abbrev S100000x16 : Shape := ⟨2, ![100000, 16]⟩
abbrev S1x16 : Shape := ⟨2, ![1, 16]⟩
abbrev S1600000x16 : Shape := ⟨2, ![1600000, 16]⟩
abbrev S16x2 : Shape := ⟨2, ![16, 2]⟩
abbrev S100000x2 : Shape := ⟨2, ![100000, 2]⟩
abbrev S1x2 : Shape := ⟨2, ![1, 2]⟩

abbrev nBuf : Space → Nat
  | .hbm => 61
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S16x32, .f32⟩
  | .hbm, ⟨3, _⟩ => ⟨S16x32, .f32⟩
  | .hbm, ⟨4, _⟩ => ⟨S16, .f32⟩
  | .hbm, ⟨5, _⟩ => ⟨S2x16, .f32⟩
  | .hbm, ⟨6, _⟩ => ⟨S2x16, .f32⟩
  | .hbm, ⟨7, _⟩ => ⟨S2, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x32, .f32⟩
  | .hbm, ⟨21, _⟩ => ⟨S_, .f32⟩
  | .hbm, ⟨22, _⟩ => ⟨S100000x32, .f32⟩
  | .hbm, ⟨23, _⟩ => ⟨S1600000x1, .i32⟩
  | .hbm, ⟨24, _⟩ => ⟨S100000x32, .f32⟩
  | .hbm, ⟨25, _⟩ => ⟨S32x16, .f32⟩
  | .hbm, ⟨26, _⟩ => ⟨S100000x16, .f32⟩
  | .hbm, ⟨27, _⟩ => ⟨S32x16, .f32⟩
  | .hbm, ⟨28, _⟩ => ⟨S100000x16, .f32⟩
  | .hbm, ⟨29, _⟩ => ⟨S100000x16, .f32⟩
  | .hbm, ⟨30, _⟩ => ⟨S1x16, .f32⟩
  | .hbm, ⟨31, _⟩ => ⟨S100000x16, .f32⟩
  | .hbm, ⟨32, _⟩ => ⟨S100000x16, .f32⟩
  | .hbm, ⟨33, _⟩ => ⟨S_, .f32⟩
  | .hbm, ⟨34, _⟩ => ⟨S100000x16, .f32⟩
  | .hbm, ⟨35, _⟩ => ⟨S100000x16, .f32⟩
  | .hbm, ⟨36, _⟩ => ⟨S1x1600000, .i32⟩
  | .hbm, ⟨37, _⟩ => ⟨S1600000, .i32⟩
  | .hbm, ⟨38, _⟩ => ⟨S1x1600000, .i32⟩
  | .hbm, ⟨39, _⟩ => ⟨S1600000, .i32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x16, .f32⟩
  | .hbm, ⟨49, _⟩ => ⟨S_, .f32⟩
  | .hbm, ⟨50, _⟩ => ⟨S100000x16, .f32⟩
  | .hbm, ⟨51, _⟩ => ⟨S1600000x1, .i32⟩
  | .hbm, ⟨52, _⟩ => ⟨S100000x16, .f32⟩
  | .hbm, ⟨53, _⟩ => ⟨S16x2, .f32⟩
  | .hbm, ⟨54, _⟩ => ⟨S100000x2, .f32⟩
  | .hbm, ⟨55, _⟩ => ⟨S16x2, .f32⟩
  | .hbm, ⟨56, _⟩ => ⟨S100000x2, .f32⟩
  | .hbm, ⟨57, _⟩ => ⟨S100000x2, .f32⟩
  | .hbm, ⟨58, _⟩ => ⟨S1x2, .f32⟩
  | .hbm, ⟨59, _⟩ => ⟨S100000x2, .f32⟩
  | .hbm, ⟨60, _⟩ => ⟨S100000x2, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_cst : Ref sig .tc := ⟨.hbm, 33, rfl⟩
abbrev main_call0_v0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_1 : Ref sig .tc := ⟨.hbm, 40, rfl⟩
abbrev main_v27 : Ref sig .tc := ⟨.hbm, 41, rfl⟩
abbrev main_v28 : Ref sig .tc := ⟨.hbm, 42, rfl⟩
abbrev main_c_2 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_3 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x32 : S_.BroadcastsInDim S100000x32 (![] : Fin 0 → Fin S100000x32.rank)
  transposes_S16x32_S32x16_1_0 : S16x32.Transposes [1, 0] S32x16
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  transposes_S2x16_S16x2_1_0 : S2x16.Transposes [1, 0] S16x2
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x16_S100000x16_1_0_0_1_n_n_wf : DotDims.WF S100000x32 S32x16 S100000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  dot_S100000x16_S16x2_S100000x2_1_0_0_1_n_n_wf : DotDims.WF S100000x16 S16x2 S100000x2 [1] [0] [0] [1] [] []

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def dot_S100000x16_S16x2_S100000x2_1_0_0_1_n_n : DotDims S100000x16 S16x2 S100000x2 where
  lhsContracting := [1]
  rhsContracting := [0]
  lhsNonContracting := [0]
  rhsNonContracting := [1]
  lhsBatch := []
  rhsBatch := []
  wf := dot_S100000x16_S16x2_S100000x2_1_0_0_1_n_n_wf

class Facts : Prop extends Facts₀ where

variable [Facts]
-- ==== Proof.Spec.lean ====
/-
  Two rounds of a graph convolution with sum aggregation, as functions of the arrays, element by element.

  A graph on `N` nodes is given by two columns of `E` integers: edge `e` reads node `srcRow s e` (its start
  index taken as a signed integer and clamped into the nodes' range, as a gather clamps) and lands on node `i`
  exactly when its target index, taken as a signed integer, is `i` (an edge whose target is no node lands nowhere,
  as a scatter drops it). One round sends a node feature array `x : N × Din` to

      out[i, j] = (sum over the edges e landing on i, of the row x[srcRow e, ·]) · wrel[j, ·]
                  + x[i, ·] · wroot[j, ·] + b[j].

  The sum over edges and the product with `wrel` can be taken in either order: `convR` sums the rows first and
  multiplies once, `convK` multiplies every row first and sums the products. On real numbers the two agree
  (a finite sum commutes with a finite sum, and a product distributes over a finite sum); on the extended reals
  this needs the entries of `x` and `wrel` to be real, since distributivity fails at the infinities.
-/
import Idealize.ShloMosaic.PureOps.Ideal
import Idealize.ShloMosaic.Lib.ValueIdx

noncomputable section

open scoped BigOperators

namespace GraphConv

open Idealize.ShloMosaic Idealize.ShloMosaic.ValueIdx

/-- A rank-2 array of extended reals. -/
abbrev Arr2 (n k : Nat) : Type := (⟨2, ![n, k]⟩ : Shape).Idx → EReal
/-- A rank-1 array of extended reals. -/
abbrev Arr1 (k : Nat) : Type := (⟨1, ![k]⟩ : Shape).Idx → EReal
/-- A column of `E` 32-bit integers. -/
abbrev Col (E : Nat) : Type := (⟨2, ![E, 1]⟩ : Shape).Idx → BitVec 32

/-- An extended real that is a real number. -/
def IsReal (x : EReal) : Prop := ∃ r : ℝ, x = (r : EReal)

variable {N E Din Dout : Nat}

/-- The node edge `e` reads: its start index as a signed integer, clamped into `[0, N - 1]`. -/
def srcRow (hN : 0 < N) (s : Col E) (e : Fin E) : Fin N :=
  ⟨min (s (ix2 e (0 : Fin 1))).toInt.toNat (N - 1), by omega⟩

/-- The edges that land on node `i`: those whose target index, as a signed integer, is `i`. -/
def hits (d : Col E) (i : Fin N) : Finset (Fin E) :=
  Finset.univ.filter fun e => (d (ix2 e (0 : Fin 1))).toInt = (i.val : ℤ)

/-- One round, every gathered row multiplied by `wrel` BEFORE the edges are summed. -/
def convK (hN : 0 < N) (s d : Col E) (x : Arr2 N Din) (wrel wroot : Arr2 Dout Din) (b : Arr1 Dout)
    (i : Fin N) (j : Fin Dout) : EReal :=
  (∑ e ∈ hits d i, ∑ k : Fin Din, x (ix2 (srcRow hN s e) k) * wrel (ix2 j k))
    + (∑ k : Fin Din, x (ix2 i k) * wroot (ix2 j k)) + b (ix1 j)

/-- One round, the gathered rows summed over the edges BEFORE the product with `wrel`. -/
def convR (hN : 0 < N) (s d : Col E) (x : Arr2 N Din) (wrel wroot : Arr2 Dout Din) (b : Arr1 Dout)
    (i : Fin N) (j : Fin Dout) : EReal :=
  (∑ k : Fin Din, (∑ e ∈ hits d i, x (ix2 (srcRow hN s e) k)) * wrel (ix2 j k))
    + (∑ k : Fin Din, x (ix2 i k) * wroot (ix2 j k)) + b (ix1 j)

/-- The first coordinate of a rank-2 index, as a number below the first extent. -/
abbrev row {n k : Nat} (o : (⟨2, ![n, k]⟩ : Shape).Idx) : Fin n := ⟨(o 0).val, idx2_lt0 o⟩
/-- The second coordinate of a rank-2 index, as a number below the second extent. -/
abbrev col {n k : Nat} (o : (⟨2, ![n, k]⟩ : Shape).Idx) : Fin k := ⟨(o 1).val, idx2_lt1 o⟩

/-- One round as an array, products before sums. -/
def convKArr (hN : 0 < N) (s d : Col E) (x : Arr2 N Din) (wrel wroot : Arr2 Dout Din) (b : Arr1 Dout) : Arr2 N Dout :=
  fun o => convK hN s d x wrel wroot b (row o) (col o)
/-- One round as an array, sums before products. -/
def convRArr (hN : 0 < N) (s d : Col E) (x : Arr2 N Din) (wrel wroot : Arr2 Dout Din) (b : Arr1 Dout) : Arr2 N Dout :=
  fun o => convR hN s d x wrel wroot b (row o) (col o)

theorem convKArr_apply (hN : 0 < N) (s d : Col E) (x : Arr2 N Din) (wrel wroot : Arr2 Dout Din) (b : Arr1 Dout)
    (p : Fin N) (q : Fin Dout) : convKArr hN s d x wrel wroot b (ix2 p q) = convK hN s d x wrel wroot b p q := rfl
theorem convRArr_apply (hN : 0 < N) (s d : Col E) (x : Arr2 N Din) (wrel wroot : Arr2 Dout Din) (b : Arr1 Dout)
    (p : Fin N) (q : Fin Dout) : convRArr hN s d x wrel wroot b (ix2 p q) = convR hN s d x wrel wroot b p q := rfl

/-- The product of an array with the transpose of a weight array: `out[i, j] = sum over k of x[i, k] * w[j, k]`. -/
def matT (x : Arr2 N Din) (w : Arr2 Dout Din) : Arr2 N Dout :=
  fun o => ∑ k : Fin Din, x (ix2 (row o) k) * w (ix2 (col o) k)

/-- The sum of two arrays and a row vector repeated down the rows. -/
def addBias {n k : Nat} (a r : Arr2 n k) (b : Arr2 1 k) : Arr2 n k :=
  fun o => a o + r o + b (ix2 (0 : Fin 1) (col o))

/-- Gather-then-scatter-add: node `i` receives the sum, over the edges landing on it, of the row each edge reads. -/
def aggr {K : Nat} (hN : 0 < N) (s d : Col E) (y : Arr2 N K) : Arr2 N K :=
  fun o => ∑ e ∈ hits d (row o), y (ix2 (srcRow hN s e) (col o))

/-- A rank-1 array as a one-row rank-2 array. -/
def asRow {k : Nat} (b : Arr1 k) : Arr2 1 k := fun o => b (ix1 (col o))

/-- Products before sums, in pieces: aggregate the product, add the root term and the bias row. -/
theorem convKArr_eq (hN : 0 < N) (s d : Col E) (x : Arr2 N Din) (wrel wroot : Arr2 Dout Din) (b : Arr1 Dout) :
    convKArr hN s d x wrel wroot b = addBias (aggr hN s d (matT x wrel)) (matT x wroot) (asRow b) := rfl

/-- Sums before products, in pieces: multiply the aggregate, add the root term and the bias. -/
theorem convRArr_eq (hN : 0 < N) (s d : Col E) (x : Arr2 N Din) (wrel wroot : Arr2 Dout Din) (b : Arr1 Dout) :
    convRArr hN s d x wrel wroot b = fun o => matT (aggr hN s d x) wrel o + matT x wroot o + b (ix1 (col o)) := rfl

/-- The positive part of an array, entry by entry. -/
def relu {n k : Nat} (y : Arr2 n k) : Arr2 n k := fun o => max (y o) 0

variable {Dhid : Nat}

/-- Two rounds with the positive part between them, products before sums. -/
def netK (hN : 0 < N) (s d : Col E) (x : Arr2 N Din) (w1rel w1root : Arr2 Dhid Din) (b1 : Arr1 Dhid)
    (w2rel w2root : Arr2 Dout Dhid) (b2 : Arr1 Dout) : Arr2 N Dout :=
  convKArr hN s d (relu (convKArr hN s d x w1rel w1root b1)) w2rel w2root b2

/-- Two rounds with the positive part between them, sums before products. -/
def netR (hN : 0 < N) (s d : Col E) (x : Arr2 N Din) (w1rel w1root : Arr2 Dhid Din) (b1 : Arr1 Dhid)
    (w2rel w2root : Arr2 Dout Dhid) (b2 : Arr1 Dout) : Arr2 N Dout :=
  convRArr hN s d (relu (convRArr hN s d x w1rel w1root b1)) w2rel w2root b2

end GraphConv

end
-- ==== Proof.LibRowGatherScatter.lean ====
/-
  A gather of whole rows and a scatter-add of whole rows, read at an index.

  `x[idx]` of a rank-2 array `x : [N, K]` at a column of start indices `idx : [E, 1]` lowers to a gather with
  offset axis 1, collapsed axis 0, start index map [0], index vector axis 1 and slice sizes [1, K]: result
  element `(e, k)` is `x` at row "start index `e`, read signed and clamped into [0, N - 1]" and column `k`.
  `zeros.at[idx].add(upd)` (a segment sum) lowers to a scatter with update window axis 1, inserted window axis 0,
  scatter-dims-to-operand-dims [0] and index vector axis 1: update element `(e, k)` lands on operand element
  `(i, k)` exactly when start index `e`, read signed and NOT clamped, is `i`; at the ideal instance the result
  element `(i, k)` is the operand's plus the sum of the updates landing on it.
-/
import Idealize.ShloMosaic.PureOps.Ideal
import Idealize.ShloMosaic.Lib.ValueIdx

noncomputable section

open scoped BigOperators

namespace Idealize.ShloMosaic.RowGatherScatter

open Idealize.ShloMosaic Idealize.ShloMosaic.ValueIdx

/-- The dimension numbers of a gather of rows. -/
abbrev gatherRowsDims (N E K : Nat)
    (wf : GatherDims.WF ⟨2, ![N, K]⟩ ⟨2, ![E, 1]⟩ ⟨2, ![E, K]⟩ [1] [0] [] [0] [] 1 ![1, K]) :
    GatherDims ⟨2, ![N, K]⟩ ⟨2, ![E, 1]⟩ ⟨2, ![E, K]⟩ where
  offsetDims := [1]
  collapsedSliceDims := [0]
  operandBatchingDims := []
  startIndicesBatchingDims := []
  startIndexMap := [0]
  indexVectorDim := 1
  sliceSizes := ![1, K]
  wf := wf

/-- THE GATHER OF ROWS READ AT `(e, k)`: the operand at row "start index `e`, signed, clamped" and column `k`. -/
theorem gather_rows_apply {α : Type} {N E K w : Nat} (hN : 0 < N)
    (wf : GatherDims.WF ⟨2, ![N, K]⟩ ⟨2, ![E, 1]⟩ ⟨2, ![E, K]⟩ [1] [0] [] [0] [] 1 ![1, K])
    (x : (⟨2, ![N, K]⟩ : Shape).Idx → α) (idx : IVec ⟨2, ![E, 1]⟩ w) (e : Fin E) (k : Fin K) :
    Host.gather (gatherRowsDims N E K wf) x idx (ix2 e k)
      = x (ix2 (⟨min (idx (ix2 e (0 : Fin 1))).toInt.toNat (N - 1), by omega⟩ : Fin N) k) := by
  unfold Host.gather
  congr 1
  funext a
  refine Fin.ext ?_
  match a with
  | ⟨0, _⟩ =>
    -- axis 0 is collapsed and start-indexed: no batching coordinate, no offset coordinate
    show (gatherRowsDims N E K wf).start (ix2 e k) idx 0 + (gatherRowsDims N E K wf).batchCoord (ix2 e k) 0
      + (gatherRowsDims N E K wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherRowsDims N E K wf).startIndexMap from List.mem_singleton.mpr rfl)]
    have hsi : (gatherRowsDims N E K wf).siIdx (ix2 e k) ⟨List.idxOf (0 : Fin 2) (gatherRowsDims N E K wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- axis 1 is the offset axis: start 0, no batching coordinate, offset coordinate the result's column
    show (gatherRowsDims N E K wf).start (ix2 e k) idx 1 + (gatherRowsDims N E K wf).batchCoord (ix2 e k) 1
      + (gatherRowsDims N E K wf).offCoord (ix2 e k) 1 = k.val
    rw [GatherDims.batchCoord_eq_zero _ _ _ List.not_mem_nil]
    have hst : (gatherRowsDims N E K wf).start (ix2 e k) idx 1 = 0 := by
      unfold GatherDims.start
      rw [dif_neg (show (1 : Fin 2) ∉ (gatherRowsDims N E K wf).startIndexMap from
        fun h => absurd (List.mem_singleton.mp h) (show (1 : Fin 2) ≠ 0 by decide))]
    have hmem : (1 : Fin 2) ∈ (gatherRowsDims N E K wf).sKept :=
      (GatherDims.mem_sKept _ _).mpr ⟨fun h => absurd (List.mem_singleton.mp h) (show (1 : Fin 2) ≠ 0 by decide), List.not_mem_nil⟩
    rw [hst]
    unfold GatherDims.offCoord
    rw [dif_pos hmem]
    simp only [Nat.zero_add, Nat.add_zero]
    rfl

/-- The dimension numbers of a scatter of rows. -/
abbrev scatterRowsDims (N E K : Nat)
    (wf : ScatterDims.WF ⟨2, ![N, K]⟩ ⟨2, ![E, 1]⟩ ⟨2, ![E, K]⟩ [1] [0] [0] 1) :
    ScatterDims ⟨2, ![N, K]⟩ ⟨2, ![E, 1]⟩ ⟨2, ![E, K]⟩ where
  updateWindowDims := [1]
  insertedWindowDims := [0]
  scatterDimsToOperandDims := [0]
  indexVectorDim := 1
  wf := wf

/-- On axis 0, the scattered one, the window of update element `(e, k)` starts at its start index, read signed. -/
theorem scatterRows_start_zero {N E K w : Nat}
    (wf : ScatterDims.WF ⟨2, ![N, K]⟩ ⟨2, ![E, 1]⟩ ⟨2, ![E, K]⟩ [1] [0] [0] 1)
    (idx : IVec ⟨2, ![E, 1]⟩ w) (e : Fin E) (k : Fin K) :
    (scatterRowsDims N E K wf).start (ix2 e k) idx 0 = (idx (ix2 e (0 : Fin 1))).toInt := by
  unfold ScatterDims.start
  rw [dif_pos (show (0 : Fin 2) ∈ (scatterRowsDims N E K wf).scatterDimsToOperandDims from List.mem_singleton.mpr rfl)]
  have hsi : (scatterRowsDims N E K wf).siIdx (ix2 e k)
      ⟨List.idxOf (0 : Fin 2) (scatterRowsDims N E K wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On axis 1, which the scatter-dims-to-operand-dims map does not name, the window starts at 0. -/
theorem scatterRows_start_one {N E K w : Nat}
    (wf : ScatterDims.WF ⟨2, ![N, K]⟩ ⟨2, ![E, 1]⟩ ⟨2, ![E, K]⟩ [1] [0] [0] 1)
    (idx : IVec ⟨2, ![E, 1]⟩ w) (e : Fin E) (k : Fin K) :
    (scatterRowsDims N E K wf).start (ix2 e k) idx 1 = 0 := by
  unfold ScatterDims.start
  rw [dif_neg (show (1 : Fin 2) ∉ (scatterRowsDims N E K wf).scatterDimsToOperandDims from
    fun h => absurd (List.mem_singleton.mp h) (show (1 : Fin 2) ≠ 0 by decide))]

/-- Axis 0 is an inserted window axis: the window coordinate there is 0. -/
theorem scatterRows_window_zero {N E K : Nat}
    (wf : ScatterDims.WF ⟨2, ![N, K]⟩ ⟨2, ![E, 1]⟩ ⟨2, ![E, K]⟩ [1] [0] [0] 1) (e : Fin E) (k : Fin K) :
    (scatterRowsDims N E K wf).window (ix2 e k) 0 = 0 := by
  unfold ScatterDims.window
  rw [dif_neg (show (0 : Fin 2) ∉ (scatterRowsDims N E K wf).sKept from
    fun h => of_decide_eq_true (List.mem_filter.mp h).2 (List.mem_singleton.mpr rfl))]

/-- Axis 1 is the window axis: the window coordinate there is the update element's column. -/
theorem scatterRows_window_one {N E K : Nat}
    (wf : ScatterDims.WF ⟨2, ![N, K]⟩ ⟨2, ![E, 1]⟩ ⟨2, ![E, K]⟩ [1] [0] [0] 1) (e : Fin E) (k : Fin K) :
    (scatterRowsDims N E K wf).window (ix2 e k) 1 = k.val := by
  unfold ScatterDims.window
  rw [dif_pos (show (1 : Fin 2) ∈ (scatterRowsDims N E K wf).sKept from
    List.mem_filter.mpr ⟨List.mem_finRange _,
      decide_eq_true (fun h => absurd (List.mem_singleton.mp h) (show (1 : Fin 2) ≠ 0 by decide))⟩)]
  rfl

/-- Where update element `(e, k)` lands: on `(i, k)` with `i` its start index read signed, when that is a row. -/
theorem resultIdx?_rows_eq_some_iff {N E K w : Nat}
    (wf : ScatterDims.WF ⟨2, ![N, K]⟩ ⟨2, ![E, 1]⟩ ⟨2, ![E, K]⟩ [1] [0] [0] 1)
    (idx : IVec ⟨2, ![E, 1]⟩ w) (e : Fin E) (k : Fin K) (i : Fin N) (k' : Fin K) :
    (scatterRowsDims N E K wf).resultIdx? (ix2 e k) idx = some (ix2 i k')
      ↔ (idx (ix2 e (0 : Fin 1))).toInt = (i.val : ℤ) ∧ k = k' := by
  have hs0 := scatterRows_start_zero wf idx e k
  have hs1 := scatterRows_start_one wf idx e k
  have hw0 := scatterRows_window_zero wf e k
  have hw1 := scatterRows_window_one wf e k
  have hi := i.isLt
  have hk := k.isLt
  have hk' := k'.isLt
  unfold ScatterDims.resultIdx?
  constructor
  · intro h
    split at h
    · rename_i hc
      have h' := Option.some.inj h
      -- the two coordinates of the landing index
      have h0 : ((scatterRowsDims N E K wf).start (ix2 e k) idx 0
          + ((scatterRowsDims N E K wf).window (ix2 e k) 0 : ℕ)).toNat = i.val :=
        congrArg (fun f : (⟨2, ![N, K]⟩ : Shape).Idx => (f 0).val) h'
      have h1 : ((scatterRowsDims N E K wf).start (ix2 e k) idx 1
          + ((scatterRowsDims N E K wf).window (ix2 e k) 1 : ℕ)).toNat = k'.val :=
        congrArg (fun f : (⟨2, ![N, K]⟩ : Shape).Idx => (f 1).val) h'
      have c0 := (hc 0).1
      rw [hs0, hw0] at h0 c0
      rw [hs1, hw1] at h1
      exact ⟨by omega, Fin.ext (by omega)⟩
    · exact absurd h (by simp)
  · rintro ⟨hi', rfl⟩
    have hc : ∀ a, 0 ≤ (scatterRowsDims N E K wf).start (ix2 e k) idx a + ((scatterRowsDims N E K wf).window (ix2 e k) a : ℕ)
        ∧ (scatterRowsDims N E K wf).start (ix2 e k) idx a + ((scatterRowsDims N E K wf).window (ix2 e k) a : ℕ)
          < ((⟨2, ![N, K]⟩ : Shape).size a : ℕ) := by
      intro a
      match a with
      | ⟨0, _⟩ =>
        show 0 ≤ (scatterRowsDims N E K wf).start (ix2 e k) idx 0 + ((scatterRowsDims N E K wf).window (ix2 e k) 0 : ℕ)
          ∧ (scatterRowsDims N E K wf).start (ix2 e k) idx 0 + ((scatterRowsDims N E K wf).window (ix2 e k) 0 : ℕ) < (N : ℤ)
        rw [hs0, hw0]; omega
      | ⟨1, _⟩ =>
        show 0 ≤ (scatterRowsDims N E K wf).start (ix2 e k) idx 1 + ((scatterRowsDims N E K wf).window (ix2 e k) 1 : ℕ)
          ∧ (scatterRowsDims N E K wf).start (ix2 e k) idx 1 + ((scatterRowsDims N E K wf).window (ix2 e k) 1 : ℕ) < (K : ℤ)
        rw [hs1, hw1]; omega
    rw [dif_pos hc]
    congr 1
    funext a
    refine Fin.ext ?_
    match a with
    | ⟨0, _⟩ =>
      show ((scatterRowsDims N E K wf).start (ix2 e k) idx 0
        + ((scatterRowsDims N E K wf).window (ix2 e k) 0 : ℕ)).toNat = i.val
      rw [hs0, hw0]; omega
    | ⟨1, _⟩ =>
      show ((scatterRowsDims N E K wf).start (ix2 e k) idx 1
        + ((scatterRowsDims N E K wf).window (ix2 e k) 1 : ℕ)).toNat = k.val
      rw [hs1, hw1]; omega

/-- THE SCATTER-ADD OF ROWS READ AT `(i, k)`, at the ideal instance: the operand's element plus the sum, over the
    update rows `e` whose start index read signed is `i`, of the update's element `(e, k)`. -/
theorem hostScatterAdd_rows_apply {N E K w : Nat}
    (wf : ScatterDims.WF ⟨2, ![N, K]⟩ ⟨2, ![E, 1]⟩ ⟨2, ![E, K]⟩ [1] [0] [0] 1)
    (x : (⟨2, ![N, K]⟩ : Shape).Idx → EReal) (idx : IVec ⟨2, ![E, 1]⟩ w)
    (upd : (⟨2, ![E, K]⟩ : Shape).Idx → EReal) (i : Fin N) (k : Fin K) :
    Ideal.hostScatterAdd (scatterRowsDims N E K wf) x idx upd (ix2 i k)
      = x (ix2 i k) + ∑ e ∈ Finset.univ.filter (fun e : Fin E => (idx (ix2 e (0 : Fin 1))).toInt = (i.val : ℤ)),
          upd (ix2 e k) := by
  unfold Ideal.hostScatterAdd
  refine congrArg (x (ix2 i k) + ·) ?_
  symm
  -- the update elements landing on `(i, k)` are the `(e, k)` with start index `i`: re-index along `e ↦ (e, k)`
  refine Finset.sum_bij (fun e _ => ix2 e k) ?_ ?_ ?_ ?_
  · intro e he
    rw [Finset.mem_filter] at he ⊢
    exact ⟨Finset.mem_univ _, (resultIdx?_rows_eq_some_iff wf idx e k i k).mpr ⟨he.2, rfl⟩⟩
  · intro e₁ _ e₂ _ h
    exact congrFun h 0
  · intro j hj
    obtain ⟨e, k', rfl⟩ : ∃ (e : Fin E) (k' : Fin K), j = ix2 e k' := ⟨j 0, j 1, eq_ix2 j⟩
    rw [Finset.mem_filter] at hj
    obtain ⟨he, rfl⟩ := (resultIdx?_rows_eq_some_iff wf idx e k' i k).mp hj.2
    exact ⟨e, Finset.mem_filter.mpr ⟨Finset.mem_univ _, he⟩, rfl⟩
  · intro e _
    rfl

end Idealize.ShloMosaic.RowGatherScatter

end
-- ==== Proof.Aggr.lean ====
/-
  A scatter-add of gathered rows into zeros is the aggregate over edges: node `i`, column `k` receives the sum, over
  the edges landing on `i`, of the entry `(row the edge reads, k)`.
-/
import proofs.«418170_j446676599185_3_alg».proof.Proof.Spec
import proofs.«418170_j446676599185_3_alg».proof.Proof.LibRowGatherScatter

noncomputable section

open scoped BigOperators

namespace GraphConv

open Idealize.ShloMosaic Idealize.ShloMosaic.ValueIdx Idealize.ShloMosaic.RowGatherScatter

variable {N E K : Nat}

/-- The scatter-add, into an array of zeros, of the rows a gather reads is `aggr`. -/
theorem scatterAdd_gather_rows (hN : 0 < N)
    (wfG : GatherDims.WF ⟨2, ![N, K]⟩ ⟨2, ![E, 1]⟩ ⟨2, ![E, K]⟩ [1] [0] [] [0] [] 1 ![1, K])
    (wfS : ScatterDims.WF ⟨2, ![N, K]⟩ ⟨2, ![E, 1]⟩ ⟨2, ![E, K]⟩ [1] [0] [0] 1)
    (x0 : Arr2 N K) (hx0 : ∀ o, x0 o = 0) (y : Arr2 N K) (s d : Col E) :
    Ideal.hostScatterAdd (scatterRowsDims N E K wfS) x0 d (Host.gather (gatherRowsDims N E K wfG) y s)
      = aggr hN s d y := by
  funext o
  obtain ⟨p, q, rfl⟩ : ∃ (p : Fin N) (q : Fin K), o = ix2 p q := ⟨row o, col o, eq_ix2 o⟩
  rw [hostScatterAdd_rows_apply, hx0, zero_add]
  refine Finset.sum_congr rfl fun e _ => ?_
  exact gather_rows_apply hN wfG y s e q

end GraphConv

end
-- ==== Proof.KReg0.lean ====
/-
  The first pallas_call (ten blocks of 10000 rows): each output block is the feature block times a transposed weight
  array, so the two output arrays after the region are `x · wrelᵀ` and `x · wrootᵀ` of the arrays the region found.

  Entry (p, q) of a block's product is the sum over the 32 columns k of x[p, k] · w[q, k]: the contraction of a row of
  the feature block with a row of the weight array (a column of its transpose), added to a zero accumulator. Block t
  of the feature array is rows t·10000 … t·10000 + 9999, the weight blocks are the whole weight arrays, and block t
  of an output array is the same rows of it; so what point t writes back is block t of the product array, and since
  row r lies in block r / 10000 the ten blocks fill the output arrays.
-/
import proofs.«418170_j446676599185_3_alg».proof.Proof.Gen.KernelIdeal.Frame
import proofs.«418170_j446676599185_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.KVal

open Cert.KernelIdeal Cert.KernelIdeal.Gen GraphConv
open Idealize.ShloMosaic Idealize.ShloMosaic.TcCoe Idealize.SL.Sem Idealize.ShloMosaic.ValueIdx
open Idealize.ShloMosaic.Pipeline (Dat)

/-! ## The product of a row block with a transposed weight block, entry by entry -/

/-- The left operand's row coordinate is the output's row coordinate. -/
theorem reg0_lhs_0 (i : S10000x16.Idx) (q : dot_S10000x32_S32x16_S10000x16_1_0_0_1_n_n.contr.Idx) :
    (dot_S10000x32_S32x16_S10000x16_1_0_0_1_n_n.lhsIdx i q 0).val = (i 0).val := by
  unfold DotDims.lhsIdx
  rw [dif_neg (show ¬(0 : Fin S10000x32.rank) ∈ dot_S10000x32_S32x16_S10000x16_1_0_0_1_n_n.lhsBatch by decide), dif_pos (show (0 : Fin S10000x32.rank) ∈ dot_S10000x32_S32x16_S10000x16_1_0_0_1_n_n.lhsNonContracting by decide)]
  rfl
/-- The left operand's column coordinate is the contraction index. -/
theorem reg0_lhs_1 (i : S10000x16.Idx) (q : dot_S10000x32_S32x16_S10000x16_1_0_0_1_n_n.contr.Idx) :
    (dot_S10000x32_S32x16_S10000x16_1_0_0_1_n_n.lhsIdx i q 1).val = (q ⟨0, by decide⟩).val :=
  dot_S10000x32_S32x16_S10000x16_1_0_0_1_n_n.lhsIdx_val_of_single rfl i q
/-- The right operand's row coordinate is the contraction index. -/
theorem reg0_rhs_0 (i : S10000x16.Idx) (q : dot_S10000x32_S32x16_S10000x16_1_0_0_1_n_n.contr.Idx) :
    (dot_S10000x32_S32x16_S10000x16_1_0_0_1_n_n.rhsIdx i q 0).val = (q ⟨0, by decide⟩).val :=
  dot_S10000x32_S32x16_S10000x16_1_0_0_1_n_n.rhsIdx_val_of_single rfl i q
/-- The right operand's column coordinate is the output's column coordinate. -/
theorem reg0_rhs_1 (i : S10000x16.Idx) (q : dot_S10000x32_S32x16_S10000x16_1_0_0_1_n_n.contr.Idx) :
    (dot_S10000x32_S32x16_S10000x16_1_0_0_1_n_n.rhsIdx i q 1).val = (i 1).val := by
  unfold DotDims.rhsIdx
  rw [dif_neg (show ¬(1 : Fin S32x16.rank) ∈ dot_S10000x32_S32x16_S10000x16_1_0_0_1_n_n.rhsBatch by decide), dif_pos (show (1 : Fin S32x16.rank) ∈ dot_S10000x32_S32x16_S10000x16_1_0_0_1_n_n.rhsNonContracting by decide)]
  rfl

/-- A block of rows times the transposed weight block, entry by entry: row `p` of the block against row `q` of the
    weights, summed over the 32 columns (the accumulator is zero, and the transposed block at (k, q) is the block at (q, k)). -/
theorem reg0_pay_apply (x0 : Vec Ideal S10000x32 .f32) (w : Vec Ideal S16x32 .f32) (p : Fin 10000) (q : Fin 16) :
    k0_pay1 (F := Ideal) x0 w (ix2 p q) = ∑ k : Fin 32, x0 (ix2 p k) * w (ix2 q k) := by
  unfold k0_pay1
  refine (Ideal.matmul_constant_zero_apply dot_S10000x32_S32x16_S10000x16_1_0_0_1_n_n none x0 _ (ix2 p q)).trans ?_
  rw [← Equiv.sum_comp (ValueIdx.contrEquiv1 dot_S10000x32_S32x16_S10000x16_1_0_0_1_n_n 32 rfl rfl).symm]
  refine Finset.sum_congr rfl fun k _ => ?_
  have hk := ValueIdx.contrEquiv1_symm_val dot_S10000x32_S32x16_S10000x16_1_0_0_1_n_n 32 rfl rfl k
  have el : dot_S10000x32_S32x16_S10000x16_1_0_0_1_n_n.lhsIdx (ix2 p q) ((ValueIdx.contrEquiv1 dot_S10000x32_S32x16_S10000x16_1_0_0_1_n_n 32 rfl rfl).symm k) = ix2 p k := funext fun a => Fin.ext (by
    match a with
    | ⟨0, _⟩ => exact reg0_lhs_0 _ _
    | ⟨1, _⟩ => exact (reg0_lhs_1 _ _).trans hk)
  rw [el]
  refine congrArg (x0 (ix2 p k) * ·) ?_
  refine transpose_apply [1, 0] w transposes_S16x32_p1_0_S32x16 _ (ix2 q k) (fun b => ?_)
  match b with
  | ⟨0, _⟩ => exact ((reg0_rhs_0 (ix2 p q) _).trans hk).symm
  | ⟨1, _⟩ => exact (reg0_rhs_1 (ix2 p q) _).symm

/-- A block of 10000 rows of the product array: if the feature block is rows `b·10000 …` of the feature array `X` and
    the weight block is the whole weight array `W`, the block's product at `j` is `X · Wᵀ` at the index `i` whose row is
    `b·10000` plus `j`'s row and whose column is `j`'s. -/
theorem reg0_entry (X : Arr2 100000 32) (W : Arr2 16 32) (x0 : Vec Ideal S10000x32 .f32) (w : Vec Ideal S16x32 .f32) (b : Nat)
    (hx : ∀ (p : Fin 10000) (k : Fin 32) (h : b * 10000 + p.val < 100000), x0 (ix2 p k) = X (ix2 ⟨b * 10000 + p.val, h⟩ k))
    (hw : ∀ (q : Fin 16) (k : Fin 32), w (ix2 q k) = W (ix2 q k))
    (j : S10000x16.Idx) (i : S100000x16.Idx) (hi0 : (i 0).val = b * 10000 + (j 0).val) (hi1 : (i 1).val = (j 1).val) :
    k0_pay1 (F := Ideal) x0 w j = matT (N := 100000) (Din := 32) (Dout := 16) X W i := by
  obtain ⟨p, q, rfl⟩ : ∃ (p : Fin 10000) (q : Fin 16), j = ix2 p q := ⟨j 0, j 1, eq_ix2 j⟩
  rw [reg0_pay_apply]
  unfold matT
  refine Finset.sum_congr rfl fun k _ => ?_
  have hlt : b * 10000 + p.val < 100000 := by have := idx2_lt0 i; omega
  have er : (row i : Fin 100000) = ⟨b * 10000 + p.val, hlt⟩ := Fin.ext hi0
  have ec : (col i : Fin 16) = q := Fin.ext hi1
  rw [er, ec, hx p k hlt, hw q k]

/-- The body's second product is the same operation on the second weight block. -/
theorem reg0_entry' (X : Arr2 100000 32) (W : Arr2 16 32) (x0 : Vec Ideal S10000x32 .f32) (w : Vec Ideal S16x32 .f32) (b : Nat)
    (hx : ∀ (p : Fin 10000) (k : Fin 32) (h : b * 10000 + p.val < 100000), x0 (ix2 p k) = X (ix2 ⟨b * 10000 + p.val, h⟩ k))
    (hw : ∀ (q : Fin 16) (k : Fin 32), w (ix2 q k) = W (ix2 q k))
    (j : S10000x16.Idx) (i : S100000x16.Idx) (hi0 : (i 0).val = b * 10000 + (j 0).val) (hi1 : (i 1).val = (j 1).val) :
    k0_pay2 (F := Ideal) x0 w j = matT (N := 100000) (Din := 32) (Dout := 16) X W i :=
  reg0_entry X W x0 w b hx hw j i hi0 hi1

/-! ## From the ten blocks to the arrays -/

variable (V : (c : Dev nD) → (b : Ref sig .tc) → Buf (Elt Ideal) ((c : Thread nD τ).loc b))

/-- The zero offsets of a whole-block access, as a constant function. -/
theorem reg0_zero_offsets : (![0, 0] : Fin 2 → Nat) = fun _ => 0 := funext fun a => by fin_cases a <;> rfl

/-- Where the ten points' blocks sit: the row-block windows at block (t, 0), the weight windows at block (0, 0). -/
theorem reg0_index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ t.val < 10 :=
  (by decide +kernel : ∀ t : Fin grid0.N, _)

/-- Each of the ten row blocks is some point's. -/
theorem reg0_point_of_block : ∀ b : Fin 10, ∃ t : Fin cfg0.N, t.val = b.val :=
  (by decide +kernel : ∀ b : Fin 10, ∃ t : Fin grid0.N, t.val = b.val)

/-- What point `t` writes back to the first output array is block `t` of `x · wrelᵀ`. -/
theorem reg0_flushed3 (c : Dev nD) (t : Fin cfg0.N) :
    (dat0 (F := Ideal) V c).flushed 3 t = ((cfg0.win 3).blk t).view.read (Elt Ideal)
      (matT (N := 100000) (Din := 32) (Dout := 16) (V c main_arg0) (V c main_arg2)) := by
  show (cfg0.win 3).cut (grid0.coords t) ((dat0 (F := Ideal) V c).after 3 t) = _
  rw [after0_3]
  unfold out0_3
  rw [View.canon_unit_zero reg0_zero_offsets]
  simp only [View.ld_unit_zero (S := S10000x32) reg0_zero_offsets, View.ld_unit_zero (S := S16x32) reg0_zero_offsets]
  obtain ⟨e00, e01, e10, e11, e20, e21, e30, e31, e40, e41, ht⟩ := reg0_index_facts t
  funext j
  refine reg0_entry (V c main_arg0) (V c main_arg2) (iblk0 V c 0 t) (iblk0 V c 1 t) t.val ?_ ?_ j (((cfg0.win 3).blk t).view.emb j) ?_ ?_
  · intro p k h
    show V c main_arg0 (((cfg0.win 0).blk t).view.emb (ix2 p k)) = _
    refine congrArg _ (funext fun a => Fin.ext ?_)
    match a with
    | ⟨0, _⟩ => show win0_0.index t (0 : Fin 2) * 10000 + 1 * p.val = t.val * 10000 + p.val; omega
    | ⟨1, _⟩ => show win0_0.index t (1 : Fin 2) * 32 + 1 * k.val = k.val; omega
  · intro q k
    show V c main_arg2 (((cfg0.win 1).blk t).view.emb (ix2 q k)) = _
    refine congrArg _ (funext fun a => Fin.ext ?_)
    match a with
    | ⟨0, _⟩ => show win0_1.index t (0 : Fin 2) * 16 + 1 * q.val = q.val; omega
    | ⟨1, _⟩ => show win0_1.index t (1 : Fin 2) * 32 + 1 * k.val = k.val; omega
  · show win0_3.index t (0 : Fin 2) * 10000 + 1 * (j 0).val = t.val * 10000 + (j 0).val; omega
  · show win0_3.index t (1 : Fin 2) * 16 + 1 * (j 1).val = (j 1).val; omega

/-- What point `t` writes back to the second output array is block `t` of `x · wrootᵀ`. -/
theorem reg0_flushed4 (c : Dev nD) (t : Fin cfg0.N) :
    (dat0 (F := Ideal) V c).flushed 4 t = ((cfg0.win 4).blk t).view.read (Elt Ideal)
      (matT (N := 100000) (Din := 32) (Dout := 16) (V c main_arg0) (V c main_arg3)) := by
  show (cfg0.win 4).cut (grid0.coords t) ((dat0 (F := Ideal) V c).after 4 t) = _
  rw [after0_4]
  unfold out0_4
  rw [View.canon_unit_zero reg0_zero_offsets]
  simp only [View.ld_unit_zero (S := S10000x32) reg0_zero_offsets, View.ld_unit_zero (S := S16x32) reg0_zero_offsets]
  obtain ⟨e00, e01, e10, e11, e20, e21, e30, e31, e40, e41, ht⟩ := reg0_index_facts t
  funext j
  refine reg0_entry' (V c main_arg0) (V c main_arg3) (iblk0 V c 0 t) (iblk0 V c 2 t) t.val ?_ ?_ j (((cfg0.win 4).blk t).view.emb j) ?_ ?_
  · intro p k h
    show V c main_arg0 (((cfg0.win 0).blk t).view.emb (ix2 p k)) = _
    refine congrArg _ (funext fun a => Fin.ext ?_)
    match a with
    | ⟨0, _⟩ => show win0_0.index t (0 : Fin 2) * 10000 + 1 * p.val = t.val * 10000 + p.val; omega
    | ⟨1, _⟩ => show win0_0.index t (1 : Fin 2) * 32 + 1 * k.val = k.val; omega
  · intro q k
    show V c main_arg3 (((cfg0.win 2).blk t).view.emb (ix2 q k)) = _
    refine congrArg _ (funext fun a => Fin.ext ?_)
    match a with
    | ⟨0, _⟩ => show win0_2.index t (0 : Fin 2) * 16 + 1 * q.val = q.val; omega
    | ⟨1, _⟩ => show win0_2.index t (1 : Fin 2) * 32 + 1 * k.val = k.val; omega
  · show win0_4.index t (0 : Fin 2) * 10000 + 1 * (j 0).val = t.val * 10000 + (j 0).val; omega
  · show win0_4.index t (1 : Fin 2) * 16 + 1 * (j 1).val = (j 1).val; omega

/-- An index of the first output array is in point `t`'s block iff each coordinate is in the block's range on its axis. -/
theorem reg0_mem_blk3 (t : Fin cfg0.N) (i : S100000x16.Idx) :
    i ∈ ((cfg0.win 3).blk t).view.set ↔ ∀ a : Fin 2, win0_3.index t a * S10000x16.size a ≤ (i a).val ∧ (i a).val < win0_3.index t a * S10000x16.size a + S10000x16.size a := by
  show i ∈ ((View.whole main_v4_0).slice (win0_3.rect t)).set ↔ _
  rw [View.set_slice_whole, Rect.mem_set_unit]
  exact Iff.rfl

/-- The same for the second output array. -/
theorem reg0_mem_blk4 (t : Fin cfg0.N) (i : S100000x16.Idx) :
    i ∈ ((cfg0.win 4).blk t).view.set ↔ ∀ a : Fin 2, win0_4.index t a * S10000x16.size a ≤ (i a).val ∧ (i a).val < win0_4.index t a * S10000x16.size a + S10000x16.size a := by
  show i ∈ ((View.whole main_v4_1).slice (win0_4.rect t)).set ↔ _
  rw [View.set_slice_whole, Rect.mem_set_unit]
  exact Iff.rfl

/-- Row `r` of the first output array is written back by point `r / 10000`. -/
theorem reg0_cover3 (i : S100000x16.Idx) :
    ∃ t : Fin cfg0.N, (cfg0.win 3).flush t = true ∧ i ∈ ((cfg0.win 3).blk t).view.set := by
  have hi0 : (i 0).val < 100000 := (i 0).isLt
  have hi1 : (i 1).val < 16 := (i 1).isLt
  obtain ⟨t, ht⟩ := reg0_point_of_block ⟨(i 0).val / 10000, by omega⟩
  have ht' : t.val = (i 0).val / 10000 := ht
  obtain ⟨e00, e01, e10, e11, e20, e21, e30, e31, e40, e41, _⟩ := reg0_index_facts t
  refine ⟨t, flush0_3 t, ?_⟩
  rw [reg0_mem_blk3]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 16 ≤ (i 1).val ∧ (i 1).val < win0_3.index t (1 : Fin 2) * 16 + 16; omega

/-- Row `r` of the second output array is written back by point `r / 10000`. -/
theorem reg0_cover4 (i : S100000x16.Idx) :
    ∃ t : Fin cfg0.N, (cfg0.win 4).flush t = true ∧ i ∈ ((cfg0.win 4).blk t).view.set := by
  have hi0 : (i 0).val < 100000 := (i 0).isLt
  have hi1 : (i 1).val < 16 := (i 1).isLt
  obtain ⟨t, ht⟩ := reg0_point_of_block ⟨(i 0).val / 10000, by omega⟩
  have ht' : t.val = (i 0).val / 10000 := ht
  obtain ⟨e00, e01, e10, e11, e20, e21, e30, e31, e40, e41, _⟩ := reg0_index_facts t
  refine ⟨t, flush0_4 t, ?_⟩
  rw [reg0_mem_blk4]
  intro a
  match a with
  | ⟨0, _⟩ => show win0_4.index t (0 : Fin 2) * 10000 ≤ (i 0).val ∧ (i 0).val < win0_4.index t (0 : Fin 2) * 10000 + 10000; omega
  | ⟨1, _⟩ => show win0_4.index t (1 : Fin 2) * 16 ≤ (i 1).val ∧ (i 1).val < win0_4.index t (1 : Fin 2) * 16 + 16; omega

/-- After the region its first output array is the product of the feature array with the transposed first weight array. -/
theorem reg0_out3 (c : Dev nD) :
    (dat0 (F := Ideal) V c).arrAt 3 cfg0.N = matT (N := 100000) (Din := 32) (Dout := 16) (V c main_arg0) (V c main_arg2) :=
  (dat0 (F := Ideal) V c).arrAt_eq_of_cover 3 _ (fun t _ => reg0_flushed3 V c t) reg0_cover3

/-- After the region its second output array is the product of the feature array with the transposed second weight array. -/
theorem reg0_out4 (c : Dev nD) :
    (dat0 (F := Ideal) V c).arrAt 4 cfg0.N = matT (N := 100000) (Din := 32) (Dout := 16) (V c main_arg0) (V c main_arg3) :=
  (dat0 (F := Ideal) V c).arrAt_eq_of_cover 4 _ (fun t _ => reg0_flushed4 V c t) reg0_cover4

end Cert.KernelIdeal.KVal

end
-- ==== Proof.KReg1.lean ====
/-
  The second pallas_call (ten blocks of 10000 rows): each output block is the positive part of the sum of the two
  input blocks and the bias row, so the output array after the region is `relu (a + r + bias)` of the arrays it found.
-/
import proofs.«418170_j446676599185_3_alg».proof.Proof.Gen.KernelIdeal.Frame
import proofs.«418170_j446676599185_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.KVal

open Cert.KernelIdeal Cert.KernelIdeal.Gen GraphConv
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The two zero offsets of an access to a whole staging buffer, as a constant function. -/
theorem reg1_zero_offsets : (![0, 0] : Fin 2 → Nat) = fun _ => 0 := funext fun a => by fin_cases a <;> rfl

/-- The body's result at row `p`, column `q` of a block: the positive part of the sum of the two blocks' entries there
    and the bias row's entry in column `q` (the same-shape casts are identities, the row is repeated down the rows,
    and the zero word is the number zero). -/
theorem reg1_pay_apply (x0 x1 : Vec Ideal S10000x16 .f32) (x2 : Vec Ideal S1x16 .f32) (p : Fin 10000) (q : Fin 16) :
    k1_pay1 (F := Ideal) x0 x1 x2 (ix2 p q) = max (x0 (ix2 p q) + x1 (ix2 p q) + x2 (ix2 (0 : Fin 1) q)) 0 := by
  unfold k1_pay1
  simp only [shapeCast_self]
  show max (x0 (ix2 p q) + x1 (ix2 p q) + broadcastTo S10000x16 x2 broadcasts_S1x16_S10000x16 (ix2 p q)) (Ideal.ofBits .f32 0x00000000#32) = _
  rw [broadcastTo_1b_ab_apply, Ideal.ofBits_zero_f32]

/-- The index maps over the ten grid points: the two row-block inputs and the output sit at block `(t, 0)`, the bias
    row at block `(0, 0)`. -/
theorem reg1_index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- One entry of a block of the body's result is the entry of `relu (a + r + bias)` at the array index `i` it sits at,
    when the two input blocks' entries are the arrays' entries at `i`, the bias block is the bias row, and `i` is in the
    same column. -/
theorem reg1_entry (a r : Vec Ideal S100000x16 .f32) (b : Vec Ideal S1x16 .f32)
    (x0 x1 : Vec Ideal S10000x16 .f32) (x2 : Vec Ideal S1x16 .f32) (j : S10000x16.Idx) (i : S100000x16.Idx)
    (h0 : x0 j = a i) (h1 : x1 j = r i) (h2 : x2 = b) (hc : (i 1).val = (j 1).val) :
    k1_pay1 (F := Ideal) x0 x1 x2 j = relu (addBias (n := 100000) (k := 16) a r b) i := by
  obtain ⟨p, q, rfl⟩ : ∃ (p : Fin 10000) (q : Fin 16), j = ix2 p q := ⟨j 0, j 1, eq_ix2 j⟩
  rw [reg1_pay_apply, h0, h1, h2]
  have hq : col i = q := Fin.ext hc
  show max (a i + r i + b (ix2 (0 : Fin 1) q)) 0 = max (a i + r i + b (ix2 (0 : Fin 1) (col i))) 0
  rw [hq]

/-- What point `t` writes back is block `t` of `relu (a + r + bias)` of the arrays the region found. -/
theorem reg1_flushed (c : Dev nD) (t : Fin cfg1.N) :
    (dat1 (F := Ideal) V c).flushed 3 t
      = ((cfg1.win 3).blk t).view.read (Elt Ideal)
          (relu (addBias (n := 100000) (k := 16) (V c main_v14) (V c main_v4_1) (V c main_v15))) := by
  show (cfg1.win 3).cut (grid1.coords t) ((dat1 V c).after 3 t) = _
  rw [after1_3]
  unfold out1_3
  rw [View.canon_unit_zero reg1_zero_offsets]
  simp only [View.ld_unit_zero (S := S10000x16) reg1_zero_offsets, View.ld_unit_zero (S := S1x16) reg1_zero_offsets]
  obtain ⟨e00, e01, e10, e11, e20, e21, e30, e31⟩ := reg1_index_facts t
  funext j
  have h0 : ((cfg1.win 0).blk t).view.emb j = ((cfg1.win 3).blk t).view.emb j := by
    funext a; apply Fin.ext
    match a with
    | ⟨0, _⟩ => show win1_0.index t (0 : Fin 2) * 10000 + 1 * (j 0).val = win1_3.index t (0 : Fin 2) * 10000 + 1 * (j 0).val; omega
    | ⟨1, _⟩ => show win1_0.index t (1 : Fin 2) * 16 + 1 * (j 1).val = win1_3.index t (1 : Fin 2) * 16 + 1 * (j 1).val; omega
  have h1 : ((cfg1.win 1).blk t).view.emb j = ((cfg1.win 3).blk t).view.emb j := by
    funext a; apply Fin.ext
    match a with
    | ⟨0, _⟩ => show win1_1.index t (0 : Fin 2) * 10000 + 1 * (j 0).val = win1_3.index t (0 : Fin 2) * 10000 + 1 * (j 0).val; omega
    | ⟨1, _⟩ => show win1_1.index t (1 : Fin 2) * 16 + 1 * (j 1).val = win1_3.index t (1 : Fin 2) * 16 + 1 * (j 1).val; omega
  have h2 : ∀ y : S1x16.Idx, ((cfg1.win 2).blk t).view.emb y = y := by
    intro y; funext a; apply Fin.ext
    match a with
    | ⟨0, _⟩ => show win1_2.index t (0 : Fin 2) * 1 + 1 * (y 0).val = (y 0).val; omega
    | ⟨1, _⟩ => show win1_2.index t (1 : Fin 2) * 16 + 1 * (y 1).val = (y 1).val; omega
  have hc : ((((cfg1.win 3).blk t).view.emb j) 1).val = (j 1).val := by
    show win1_3.index t (1 : Fin 2) * 16 + 1 * (j 1).val = (j 1).val; omega
  exact reg1_entry (V c main_v14) (V c main_v4_1) (V c main_v15) (iblk1 V c 0 t) (iblk1 V c 1 t) (iblk1 V c 2 t) j
    (((cfg1.win 3).blk t).view.emb j) (congrArg (V c main_v14) h0) (congrArg (V c main_v4_1) h1)
    (funext fun y => congrArg (V c main_v15) (h2 y)) hc

/-- An index of the array is in point `t`'s block exactly when each coordinate is in the block's range on its axis. -/
theorem reg1_mem_blk (t : Fin cfg1.N) (i : S100000x16.Idx) :
    i ∈ ((cfg1.win 3).blk t).view.set ↔ ∀ a : Fin 2, win1_3.index t a * S10000x16.size a ≤ (i a).val ∧ (i a).val < win1_3.index t a * S10000x16.size a + S10000x16.size a := by
  show i ∈ ((View.whole main_v16).slice (win1_3.rect t)).set ↔ _
  rw [View.set_slice_whole, Rect.mem_set_unit]
  exact Iff.rfl

/-- Every index of the array is in some point's block: row `r` is in the block of point `r / 10000`. -/
theorem reg1_cover (i : S100000x16.Idx) :
    ∃ t : Fin cfg1.N, (cfg1.win 3).flush t = true ∧ i ∈ ((cfg1.win 3).blk t).view.set := by
  have hi0 : (i 0).val < 100000 := (i 0).isLt
  have hi1 : (i 1).val < 16 := (i 1).isLt
  obtain ⟨t, ht⟩ : ∃ t : Fin cfg1.N, t.val = (i 0).val / 10000 :=
    ⟨⟨(i 0).val / 10000, by show (i 0).val / 10000 < 10; omega⟩, rfl⟩
  obtain ⟨-, -, -, -, -, -, e30, e31⟩ := reg1_index_facts t
  refine ⟨t, flush1_3 t, ?_⟩
  rw [reg1_mem_blk]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 16 ≤ (i 1).val ∧ (i 1).val < win1_3.index t (1 : Fin 2) * 16 + 16; omega

/-- After the region its output array is the positive part of the sum of its two input arrays and the bias row. -/
theorem reg1_out3 (c : Dev nD) :
    (dat1 (F := Ideal) V c).arrAt 3 cfg1.N = relu (addBias (n := 100000) (k := 16) (V c main_v14) (V c main_v4_1) (V c main_v15)) :=
  (dat1 (F := Ideal) V c).arrAt_eq_of_cover 3 _ (fun t _ => reg1_flushed V c t) reg1_cover

end Cert.KernelIdeal.KVal

end
-- ==== Proof.KReg2.lean ====
/-
  The third pallas_call: as the first, on 16 input columns and 2 output columns.

  Entry (p, q) of a block's product is the sum over the 16 columns k of h[p, k] · w[q, k], added to a zero
  accumulator (the hidden block passes through a reshaping to its own shape, which changes nothing). Block t of the
  hidden array is rows t·10000 … t·10000 + 9999, the weight blocks are the whole weight arrays, and block t of an
  output array is the same rows of it; row r lies in block r / 10000, so the ten blocks fill the output arrays.
-/
import proofs.«418170_j446676599185_3_alg».proof.Proof.Gen.KernelIdeal.Frame
import proofs.«418170_j446676599185_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.KVal

open Cert.KernelIdeal Cert.KernelIdeal.Gen GraphConv
open Idealize.ShloMosaic Idealize.ShloMosaic.TcCoe Idealize.SL.Sem Idealize.ShloMosaic.ValueIdx
open Idealize.ShloMosaic.Pipeline (Dat)

/-! ## The product of a row block with a transposed weight block, entry by entry -/

/-- The left operand's row coordinate is the output's row coordinate. -/
theorem reg2_lhs_0 (i : S10000x2.Idx) (q : dot_S10000x16_S16x2_S10000x2_1_0_0_1_n_n.contr.Idx) :
    (dot_S10000x16_S16x2_S10000x2_1_0_0_1_n_n.lhsIdx i q 0).val = (i 0).val := by
  unfold DotDims.lhsIdx
  rw [dif_neg (show ¬(0 : Fin S10000x16.rank) ∈ dot_S10000x16_S16x2_S10000x2_1_0_0_1_n_n.lhsBatch by decide), dif_pos (show (0 : Fin S10000x16.rank) ∈ dot_S10000x16_S16x2_S10000x2_1_0_0_1_n_n.lhsNonContracting by decide)]
  rfl
/-- The left operand's column coordinate is the contraction index. -/
theorem reg2_lhs_1 (i : S10000x2.Idx) (q : dot_S10000x16_S16x2_S10000x2_1_0_0_1_n_n.contr.Idx) :
    (dot_S10000x16_S16x2_S10000x2_1_0_0_1_n_n.lhsIdx i q 1).val = (q ⟨0, by decide⟩).val :=
  dot_S10000x16_S16x2_S10000x2_1_0_0_1_n_n.lhsIdx_val_of_single rfl i q
/-- The right operand's row coordinate is the contraction index. -/
theorem reg2_rhs_0 (i : S10000x2.Idx) (q : dot_S10000x16_S16x2_S10000x2_1_0_0_1_n_n.contr.Idx) :
    (dot_S10000x16_S16x2_S10000x2_1_0_0_1_n_n.rhsIdx i q 0).val = (q ⟨0, by decide⟩).val :=
  dot_S10000x16_S16x2_S10000x2_1_0_0_1_n_n.rhsIdx_val_of_single rfl i q
/-- The right operand's column coordinate is the output's column coordinate. -/
theorem reg2_rhs_1 (i : S10000x2.Idx) (q : dot_S10000x16_S16x2_S10000x2_1_0_0_1_n_n.contr.Idx) :
    (dot_S10000x16_S16x2_S10000x2_1_0_0_1_n_n.rhsIdx i q 1).val = (i 1).val := by
  unfold DotDims.rhsIdx
  rw [dif_neg (show ¬(1 : Fin S16x2.rank) ∈ dot_S10000x16_S16x2_S10000x2_1_0_0_1_n_n.rhsBatch by decide), dif_pos (show (1 : Fin S16x2.rank) ∈ dot_S10000x16_S16x2_S10000x2_1_0_0_1_n_n.rhsNonContracting by decide)]
  rfl

/-- A block of rows times the transposed weight block, entry by entry: row `p` of the block against row `q` of the
    weights, summed over the 16 columns (the accumulator is zero, the reshaping of the block to its own shape is the
    identity, and the transposed weight block at (k, q) is the block at (q, k)). -/
theorem reg2_pay_apply (x0 : Vec Ideal S10000x16 .f32) (w : Vec Ideal S2x16 .f32) (p : Fin 10000) (q : Fin 2) :
    k2_pay2 (F := Ideal) x0 w (ix2 p q) = ∑ k : Fin 16, x0 (ix2 p k) * w (ix2 q k) := by
  unfold k2_pay2 k2_pay1
  have es : shapeCast S10000x16 x0 shapeCasts_S10000x16_S10000x16 = x0 := shapeCast_self x0 _
  refine (Ideal.matmul_constant_zero_apply dot_S10000x16_S16x2_S10000x2_1_0_0_1_n_n none _ _ (ix2 p q)).trans ?_
  rw [← Equiv.sum_comp (ValueIdx.contrEquiv1 dot_S10000x16_S16x2_S10000x2_1_0_0_1_n_n 16 rfl rfl).symm]
  refine Finset.sum_congr rfl fun k _ => ?_
  have hk := ValueIdx.contrEquiv1_symm_val dot_S10000x16_S16x2_S10000x2_1_0_0_1_n_n 16 rfl rfl k
  have el : dot_S10000x16_S16x2_S10000x2_1_0_0_1_n_n.lhsIdx (ix2 p q) ((ValueIdx.contrEquiv1 dot_S10000x16_S16x2_S10000x2_1_0_0_1_n_n 16 rfl rfl).symm k) = ix2 p k := funext fun a => Fin.ext (by
    match a with
    | ⟨0, _⟩ => exact reg2_lhs_0 _ _
    | ⟨1, _⟩ => exact (reg2_lhs_1 _ _).trans hk)
  rw [el, es]
  refine congrArg (x0 (ix2 p k) * ·) ?_
  refine transpose_apply [1, 0] w transposes_S2x16_p1_0_S16x2 _ (ix2 q k) (fun b => ?_)
  match b with
  | ⟨0, _⟩ => exact ((reg2_rhs_0 (ix2 p q) _).trans hk).symm
  | ⟨1, _⟩ => exact (reg2_rhs_1 (ix2 p q) _).symm

/-- A block of 10000 rows of the product array: if the hidden block is rows `b·10000 …` of the hidden array `X` and
    the weight block is the whole weight array `W`, the block's product at `j` is `X · Wᵀ` at the index `i` whose row is
    `b·10000` plus `j`'s row and whose column is `j`'s. -/
theorem reg2_entry (X : Arr2 100000 16) (W : Arr2 2 16) (x0 : Vec Ideal S10000x16 .f32) (w : Vec Ideal S2x16 .f32) (b : Nat)
    (hx : ∀ (p : Fin 10000) (k : Fin 16) (h : b * 10000 + p.val < 100000), x0 (ix2 p k) = X (ix2 ⟨b * 10000 + p.val, h⟩ k))
    (hw : ∀ (q : Fin 2) (k : Fin 16), w (ix2 q k) = W (ix2 q k))
    (j : S10000x2.Idx) (i : S100000x2.Idx) (hi0 : (i 0).val = b * 10000 + (j 0).val) (hi1 : (i 1).val = (j 1).val) :
    k2_pay2 (F := Ideal) x0 w j = matT (N := 100000) (Din := 16) (Dout := 2) X W i := by
  obtain ⟨p, q, rfl⟩ : ∃ (p : Fin 10000) (q : Fin 2), j = ix2 p q := ⟨j 0, j 1, eq_ix2 j⟩
  rw [reg2_pay_apply]
  unfold matT
  refine Finset.sum_congr rfl fun k _ => ?_
  have hlt : b * 10000 + p.val < 100000 := by have := idx2_lt0 i; omega
  have er : (row i : Fin 100000) = ⟨b * 10000 + p.val, hlt⟩ := Fin.ext hi0
  have ec : (col i : Fin 2) = q := Fin.ext hi1
  rw [er, ec, hx p k hlt, hw q k]

/-- The body's second product is the same operation on the second weight block. -/
theorem reg2_entry' (X : Arr2 100000 16) (W : Arr2 2 16) (x0 : Vec Ideal S10000x16 .f32) (w : Vec Ideal S2x16 .f32) (b : Nat)
    (hx : ∀ (p : Fin 10000) (k : Fin 16) (h : b * 10000 + p.val < 100000), x0 (ix2 p k) = X (ix2 ⟨b * 10000 + p.val, h⟩ k))
    (hw : ∀ (q : Fin 2) (k : Fin 16), w (ix2 q k) = W (ix2 q k))
    (j : S10000x2.Idx) (i : S100000x2.Idx) (hi0 : (i 0).val = b * 10000 + (j 0).val) (hi1 : (i 1).val = (j 1).val) :
    k2_pay3 (F := Ideal) x0 w j = matT (N := 100000) (Din := 16) (Dout := 2) X W i :=
  reg2_entry X W x0 w b hx hw j i hi0 hi1

/-! ## From the ten blocks to the arrays -/

variable (V : (c : Dev nD) → (b : Ref sig .tc) → Buf (Elt Ideal) ((c : Thread nD τ).loc b))

/-- The zero offsets of a whole-block access, as a constant function. -/
theorem reg2_zero_offsets : (![0, 0] : Fin 2 → Nat) = fun _ => 0 := funext fun a => by fin_cases a <;> rfl

/-- Where the ten points' blocks sit: the row-block windows at block (t, 0), the weight windows at block (0, 0). -/
theorem reg2_index_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0
    ∧ t.val < 10 :=
  (by decide +kernel : ∀ t : Fin grid2.N, _)

/-- Each of the ten row blocks is some point's. -/
theorem reg2_point_of_block : ∀ b : Fin 10, ∃ t : Fin cfg2.N, t.val = b.val :=
  (by decide +kernel : ∀ b : Fin 10, ∃ t : Fin grid2.N, t.val = b.val)

/-- What point `t` writes back to the first output array is block `t` of `h · wrelᵀ`. -/
theorem reg2_flushed3 (c : Dev nD) (t : Fin cfg2.N) :
    (dat2 (F := Ideal) V c).flushed 3 t = ((cfg2.win 3).blk t).view.read (Elt Ideal)
      (matT (N := 100000) (Din := 16) (Dout := 2) (V c main_v16) (V c main_arg5)) := by
  show (cfg2.win 3).cut (grid2.coords t) ((dat2 (F := Ideal) V c).after 3 t) = _
  rw [after2_3]
  unfold out2_3
  rw [View.canon_unit_zero reg2_zero_offsets]
  simp only [View.ld_unit_zero (S := S10000x16) reg2_zero_offsets, View.ld_unit_zero (S := S2x16) reg2_zero_offsets]
  obtain ⟨e00, e01, e10, e11, e20, e21, e30, e31, e40, e41, ht⟩ := reg2_index_facts t
  funext j
  refine reg2_entry (V c main_v16) (V c main_arg5) (iblk2 V c 0 t) (iblk2 V c 1 t) t.val ?_ ?_ j (((cfg2.win 3).blk t).view.emb j) ?_ ?_
  · intro p k h
    show V c main_v16 (((cfg2.win 0).blk t).view.emb (ix2 p k)) = _
    refine congrArg _ (funext fun a => Fin.ext ?_)
    match a with
    | ⟨0, _⟩ => show win2_0.index t (0 : Fin 2) * 10000 + 1 * p.val = t.val * 10000 + p.val; omega
    | ⟨1, _⟩ => show win2_0.index t (1 : Fin 2) * 16 + 1 * k.val = k.val; omega
  · intro q k
    show V c main_arg5 (((cfg2.win 1).blk t).view.emb (ix2 q k)) = _
    refine congrArg _ (funext fun a => Fin.ext ?_)
    match a with
    | ⟨0, _⟩ => show win2_1.index t (0 : Fin 2) * 2 + 1 * q.val = q.val; omega
    | ⟨1, _⟩ => show win2_1.index t (1 : Fin 2) * 16 + 1 * k.val = k.val; omega
  · show win2_3.index t (0 : Fin 2) * 10000 + 1 * (j 0).val = t.val * 10000 + (j 0).val; omega
  · show win2_3.index t (1 : Fin 2) * 2 + 1 * (j 1).val = (j 1).val; omega

/-- What point `t` writes back to the second output array is block `t` of `h · wrootᵀ`. -/
theorem reg2_flushed4 (c : Dev nD) (t : Fin cfg2.N) :
    (dat2 (F := Ideal) V c).flushed 4 t = ((cfg2.win 4).blk t).view.read (Elt Ideal)
      (matT (N := 100000) (Din := 16) (Dout := 2) (V c main_v16) (V c main_arg6)) := by
  show (cfg2.win 4).cut (grid2.coords t) ((dat2 (F := Ideal) V c).after 4 t) = _
  rw [after2_4]
  unfold out2_4
  rw [View.canon_unit_zero reg2_zero_offsets]
  simp only [View.ld_unit_zero (S := S10000x16) reg2_zero_offsets, View.ld_unit_zero (S := S2x16) reg2_zero_offsets]
  obtain ⟨e00, e01, e10, e11, e20, e21, e30, e31, e40, e41, ht⟩ := reg2_index_facts t
  funext j
  refine reg2_entry' (V c main_v16) (V c main_arg6) (iblk2 V c 0 t) (iblk2 V c 2 t) t.val ?_ ?_ j (((cfg2.win 4).blk t).view.emb j) ?_ ?_
  · intro p k h
    show V c main_v16 (((cfg2.win 0).blk t).view.emb (ix2 p k)) = _
    refine congrArg _ (funext fun a => Fin.ext ?_)
    match a with
    | ⟨0, _⟩ => show win2_0.index t (0 : Fin 2) * 10000 + 1 * p.val = t.val * 10000 + p.val; omega
    | ⟨1, _⟩ => show win2_0.index t (1 : Fin 2) * 16 + 1 * k.val = k.val; omega
  · intro q k
    show V c main_arg6 (((cfg2.win 2).blk t).view.emb (ix2 q k)) = _
    refine congrArg _ (funext fun a => Fin.ext ?_)
    match a with
    | ⟨0, _⟩ => show win2_2.index t (0 : Fin 2) * 2 + 1 * q.val = q.val; omega
    | ⟨1, _⟩ => show win2_2.index t (1 : Fin 2) * 16 + 1 * k.val = k.val; omega
  · show win2_4.index t (0 : Fin 2) * 10000 + 1 * (j 0).val = t.val * 10000 + (j 0).val; omega
  · show win2_4.index t (1 : Fin 2) * 2 + 1 * (j 1).val = (j 1).val; omega

/-- An index of the first output array is in point `t`'s block iff each coordinate is in the block's range on its axis. -/
theorem reg2_mem_blk3 (t : Fin cfg2.N) (i : S100000x2.Idx) :
    i ∈ ((cfg2.win 3).blk t).view.set ↔ ∀ a : Fin 2, win2_3.index t a * S10000x2.size a ≤ (i a).val ∧ (i a).val < win2_3.index t a * S10000x2.size a + S10000x2.size a := by
  show i ∈ ((View.whole main_v17_0).slice (win2_3.rect t)).set ↔ _
  rw [View.set_slice_whole, Rect.mem_set_unit]
  exact Iff.rfl

/-- The same for the second output array. -/
theorem reg2_mem_blk4 (t : Fin cfg2.N) (i : S100000x2.Idx) :
    i ∈ ((cfg2.win 4).blk t).view.set ↔ ∀ a : Fin 2, win2_4.index t a * S10000x2.size a ≤ (i a).val ∧ (i a).val < win2_4.index t a * S10000x2.size a + S10000x2.size a := by
  show i ∈ ((View.whole main_v17_1).slice (win2_4.rect t)).set ↔ _
  rw [View.set_slice_whole, Rect.mem_set_unit]
  exact Iff.rfl

/-- Row `r` of the first output array is written back by point `r / 10000`. -/
theorem reg2_cover3 (i : S100000x2.Idx) :
    ∃ t : Fin cfg2.N, (cfg2.win 3).flush t = true ∧ i ∈ ((cfg2.win 3).blk t).view.set := by
  have hi0 : (i 0).val < 100000 := (i 0).isLt
  have hi1 : (i 1).val < 2 := (i 1).isLt
  obtain ⟨t, ht⟩ := reg2_point_of_block ⟨(i 0).val / 10000, by omega⟩
  have ht' : t.val = (i 0).val / 10000 := ht
  obtain ⟨e00, e01, e10, e11, e20, e21, e30, e31, e40, e41, _⟩ := reg2_index_facts t
  refine ⟨t, flush2_3 t, ?_⟩
  rw [reg2_mem_blk3]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 2 ≤ (i 1).val ∧ (i 1).val < win2_3.index t (1 : Fin 2) * 2 + 2; omega

/-- Row `r` of the second output array is written back by point `r / 10000`. -/
theorem reg2_cover4 (i : S100000x2.Idx) :
    ∃ t : Fin cfg2.N, (cfg2.win 4).flush t = true ∧ i ∈ ((cfg2.win 4).blk t).view.set := by
  have hi0 : (i 0).val < 100000 := (i 0).isLt
  have hi1 : (i 1).val < 2 := (i 1).isLt
  obtain ⟨t, ht⟩ := reg2_point_of_block ⟨(i 0).val / 10000, by omega⟩
  have ht' : t.val = (i 0).val / 10000 := ht
  obtain ⟨e00, e01, e10, e11, e20, e21, e30, e31, e40, e41, _⟩ := reg2_index_facts t
  refine ⟨t, flush2_4 t, ?_⟩
  rw [reg2_mem_blk4]
  intro a
  match a with
  | ⟨0, _⟩ => show win2_4.index t (0 : Fin 2) * 10000 ≤ (i 0).val ∧ (i 0).val < win2_4.index t (0 : Fin 2) * 10000 + 10000; omega
  | ⟨1, _⟩ => show win2_4.index t (1 : Fin 2) * 2 ≤ (i 1).val ∧ (i 1).val < win2_4.index t (1 : Fin 2) * 2 + 2; omega

/-- After the region its first output array is the product of the hidden array with the transposed first weight array. -/
theorem reg2_out3 (c : Dev nD) :
    (dat2 (F := Ideal) V c).arrAt 3 cfg2.N = matT (N := 100000) (Din := 16) (Dout := 2) (V c main_v16) (V c main_arg5) :=
  (dat2 (F := Ideal) V c).arrAt_eq_of_cover 3 _ (fun t _ => reg2_flushed3 V c t) reg2_cover3

/-- After the region its second output array is the product of the hidden array with the transposed second weight array. -/
theorem reg2_out4 (c : Dev nD) :
    (dat2 (F := Ideal) V c).arrAt 4 cfg2.N = matT (N := 100000) (Din := 16) (Dout := 2) (V c main_v16) (V c main_arg6) :=
  (dat2 (F := Ideal) V c).arrAt_eq_of_cover 4 _ (fun t _ => reg2_flushed4 V c t) reg2_cover4

end Cert.KernelIdeal.KVal

end
-- ==== Proof.KReg3.lean ====
/-
  The fourth pallas_call: as the second on 2 columns, without the positive part.
-/
import proofs.«418170_j446676599185_3_alg».proof.Proof.Gen.KernelIdeal.Frame
import proofs.«418170_j446676599185_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.KVal

open Cert.KernelIdeal Cert.KernelIdeal.Gen GraphConv
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The two zero offsets of an access to a whole staging buffer, as a constant function. -/
theorem reg3_zero_offsets : (![0, 0] : Fin 2 → Nat) = fun _ => 0 := funext fun a => by fin_cases a <;> rfl

/-- The body's result at row `p`, column `q` of a block: the sum of the two blocks' entries there and the bias row's
    entry in column `q` (the same-shape casts are identities and the row is repeated down the rows). -/
theorem reg3_pay_apply (x0 x1 : Vec Ideal S10000x2 .f32) (x2 : Vec Ideal S1x2 .f32) (p : Fin 10000) (q : Fin 2) :
    k3_pay1 (F := Ideal) x0 x1 x2 (ix2 p q) = x0 (ix2 p q) + x1 (ix2 p q) + x2 (ix2 (0 : Fin 1) q) := by
  unfold k3_pay1
  simp only [shapeCast_self]
  show x0 (ix2 p q) + x1 (ix2 p q) + broadcastTo S10000x2 x2 broadcasts_S1x2_S10000x2 (ix2 p q) = _
  rw [broadcastTo_1b_ab_apply]

/-- The index maps over the ten grid points: the two row-block inputs and the output sit at block `(t, 0)`, the bias
    row at block `(0, 0)`. -/
theorem reg3_index_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- One entry of a block of the body's result is the entry of `a + r + bias` at the array index `i` it sits at, when
    the two input blocks' entries are the arrays' entries at `i`, the bias block is the bias row, and `i` is in the same
    column. -/
theorem reg3_entry (a r : Vec Ideal S100000x2 .f32) (b : Vec Ideal S1x2 .f32)
    (x0 x1 : Vec Ideal S10000x2 .f32) (x2 : Vec Ideal S1x2 .f32) (j : S10000x2.Idx) (i : S100000x2.Idx)
    (h0 : x0 j = a i) (h1 : x1 j = r i) (h2 : x2 = b) (hc : (i 1).val = (j 1).val) :
    k3_pay1 (F := Ideal) x0 x1 x2 j = addBias (n := 100000) (k := 2) a r b i := by
  obtain ⟨p, q, rfl⟩ : ∃ (p : Fin 10000) (q : Fin 2), j = ix2 p q := ⟨j 0, j 1, eq_ix2 j⟩
  rw [reg3_pay_apply, h0, h1, h2]
  have hq : col i = q := Fin.ext hc
  show a i + r i + b (ix2 (0 : Fin 1) q) = a i + r i + b (ix2 (0 : Fin 1) (col i))
  rw [hq]

/-- What point `t` writes back is block `t` of `a + r + bias` of the arrays the region found. -/
theorem reg3_flushed (c : Dev nD) (t : Fin cfg3.N) :
    (dat3 (F := Ideal) V c).flushed 3 t
      = ((cfg3.win 3).blk t).view.read (Elt Ideal)
          (addBias (n := 100000) (k := 2) (V c main_v27) (V c main_v17_1) (V c main_v28)) := by
  show (cfg3.win 3).cut (grid3.coords t) ((dat3 V c).after 3 t) = _
  rw [after3_3]
  unfold out3_3
  rw [View.canon_unit_zero reg3_zero_offsets]
  simp only [View.ld_unit_zero (S := S10000x2) reg3_zero_offsets, View.ld_unit_zero (S := S1x2) reg3_zero_offsets]
  obtain ⟨e00, e01, e10, e11, e20, e21, e30, e31⟩ := reg3_index_facts t
  funext j
  have h0 : ((cfg3.win 0).blk t).view.emb j = ((cfg3.win 3).blk t).view.emb j := by
    funext a; apply Fin.ext
    match a with
    | ⟨0, _⟩ => show win3_0.index t (0 : Fin 2) * 10000 + 1 * (j 0).val = win3_3.index t (0 : Fin 2) * 10000 + 1 * (j 0).val; omega
    | ⟨1, _⟩ => show win3_0.index t (1 : Fin 2) * 2 + 1 * (j 1).val = win3_3.index t (1 : Fin 2) * 2 + 1 * (j 1).val; omega
  have h1 : ((cfg3.win 1).blk t).view.emb j = ((cfg3.win 3).blk t).view.emb j := by
    funext a; apply Fin.ext
    match a with
    | ⟨0, _⟩ => show win3_1.index t (0 : Fin 2) * 10000 + 1 * (j 0).val = win3_3.index t (0 : Fin 2) * 10000 + 1 * (j 0).val; omega
    | ⟨1, _⟩ => show win3_1.index t (1 : Fin 2) * 2 + 1 * (j 1).val = win3_3.index t (1 : Fin 2) * 2 + 1 * (j 1).val; omega
  have h2 : ∀ y : S1x2.Idx, ((cfg3.win 2).blk t).view.emb y = y := by
    intro y; funext a; apply Fin.ext
    match a with
    | ⟨0, _⟩ => show win3_2.index t (0 : Fin 2) * 1 + 1 * (y 0).val = (y 0).val; omega
    | ⟨1, _⟩ => show win3_2.index t (1 : Fin 2) * 2 + 1 * (y 1).val = (y 1).val; omega
  have hc : ((((cfg3.win 3).blk t).view.emb j) 1).val = (j 1).val := by
    show win3_3.index t (1 : Fin 2) * 2 + 1 * (j 1).val = (j 1).val; omega
  exact reg3_entry (V c main_v27) (V c main_v17_1) (V c main_v28) (iblk3 V c 0 t) (iblk3 V c 1 t) (iblk3 V c 2 t) j
    (((cfg3.win 3).blk t).view.emb j) (congrArg (V c main_v27) h0) (congrArg (V c main_v17_1) h1)
    (funext fun y => congrArg (V c main_v28) (h2 y)) hc

/-- An index of the array is in point `t`'s block exactly when each coordinate is in the block's range on its axis. -/
theorem reg3_mem_blk (t : Fin cfg3.N) (i : S100000x2.Idx) :
    i ∈ ((cfg3.win 3).blk t).view.set ↔ ∀ a : Fin 2, win3_3.index t a * S10000x2.size a ≤ (i a).val ∧ (i a).val < win3_3.index t a * S10000x2.size a + S10000x2.size a := by
  show i ∈ ((View.whole main_v29).slice (win3_3.rect t)).set ↔ _
  rw [View.set_slice_whole, Rect.mem_set_unit]
  exact Iff.rfl

/-- Every index of the array is in some point's block: row `r` is in the block of point `r / 10000`. -/
theorem reg3_cover (i : S100000x2.Idx) :
    ∃ t : Fin cfg3.N, (cfg3.win 3).flush t = true ∧ i ∈ ((cfg3.win 3).blk t).view.set := by
  have hi0 : (i 0).val < 100000 := (i 0).isLt
  have hi1 : (i 1).val < 2 := (i 1).isLt
  obtain ⟨t, ht⟩ : ∃ t : Fin cfg3.N, t.val = (i 0).val / 10000 :=
    ⟨⟨(i 0).val / 10000, by show (i 0).val / 10000 < 10; omega⟩, rfl⟩
  obtain ⟨-, -, -, -, -, -, e30, e31⟩ := reg3_index_facts t
  refine ⟨t, flush3_3 t, ?_⟩
  rw [reg3_mem_blk]
  intro a
  match a with
  | ⟨0, _⟩ => show win3_3.index t (0 : Fin 2) * 10000 ≤ (i 0).val ∧ (i 0).val < win3_3.index t (0 : Fin 2) * 10000 + 10000; omega
  | ⟨1, _⟩ => show win3_3.index t (1 : Fin 2) * 2 ≤ (i 1).val ∧ (i 1).val < win3_3.index t (1 : Fin 2) * 2 + 2; omega

/-- After the region its output array is the sum of its two input arrays and the bias row. -/
theorem reg3_out3 (c : Dev nD) :
    (dat3 (F := Ideal) V c).arrAt 3 cfg3.N = addBias (n := 100000) (k := 2) (V c main_v27) (V c main_v17_1) (V c main_v28) :=
  (dat3 (F := Ideal) V c).arrAt_eq_of_cover 3 _ (fun t _ => reg3_flushed V c t) reg3_cover

end Cert.KernelIdeal.KVal

end
-- ==== Proof.KValue.lean ====
/-
  What the kernel program's result buffer holds at the end of the fold through the program: two rounds of the graph
  convolution, products before sums.

  The program is four pallas_calls among three stretches of host operations. The first stretch cuts the edge list
  into its source and target rows; the first pallas_call forms `x · w1relᵀ` and `x · w1rootᵀ`; the second stretch
  wraps negative source indices, gathers the rows of the first product the edges read and scatter-adds them onto the
  nodes the edges land on (the aggregate), and reshapes the bias to a row; the second pallas_call adds aggregate, root
  term and bias and takes the positive part; the third pallas_call multiplies that by the second round's two weight
  arrays; the third stretch aggregates again; the fourth pallas_call adds. Each boundary's contents are read off the
  one before, one buffer at a time.
-/
import proofs.«418170_j446676599185_3_alg».proof.Proof.Gen.KernelIdeal.Frame
import proofs.«418170_j446676599185_3_alg».proof.Proof.Spec
import proofs.«418170_j446676599185_3_alg».proof.Proof.Aggr
import proofs.«418170_j446676599185_3_alg».proof.Proof.KReg0
import proofs.«418170_j446676599185_3_alg».proof.Proof.KReg1
import proofs.«418170_j446676599185_3_alg».proof.Proof.KReg2
import proofs.«418170_j446676599185_3_alg».proof.Proof.KReg3
import Idealize.ShloMosaic.Lib.StableHlo.Run
import Idealize.ShloMosaic.Lib.Pipeline.Value
import Idealize.ShloMosaic.PureOps.Ideal.Laws

set_option maxRecDepth 16384

noncomputable section

open scoped BigOperators

namespace Cert.KernelIdeal.KVal

open Cert.KernelIdeal Cert.KernelIdeal.Gen GraphConv
open Idealize.ShloMosaic Idealize.ShloMosaic.TcCoe Idealize.SL.Sem Idealize.ShloMosaic.ValueIdx Idealize.ShloMosaic.StableHlo
open Idealize.ShloMosaic.RowGatherScatter

/-! ## The two index columns, as the program computes them from the edge list -/

/-- Row `r` of the edge list as a vector of `E` integers. -/
def edgeRow0 (a1 : IVec S2x1600000 32) : IVec S1600000 32 :=
  shapeCast S1600000 (extractStridedSlice S1x1600000 ![0, 0] a1 slices_S2x1600000_S1x1600000_0_0) shapeCasts_S1x1600000_S1600000
def edgeRow1 (a1 : IVec S2x1600000 32) : IVec S1600000 32 :=
  shapeCast S1600000 (extractStridedSlice S1x1600000 ![1, 0] a1 slices_S2x1600000_S1x1600000_1_0) shapeCasts_S1x1600000_S1600000

/-- The source column of a vector of source indices: a negative index wrapped by the number of nodes, as a column. -/
def srcColOf (v : IVec S1600000 32) : IVec S1600000x1 32 :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 100000#32))) v)
/-- The target column of a vector of target indices. -/
def dstColOf (v : IVec S1600000 32) : IVec S1600000x1 32 :=
  broadcastInDim S1600000x1 ![0] bcast_S1600000_S1600000x1_0 v

/-- The source column of the edge list. -/
def srcCol (a1 : IVec S2x1600000 32) : IVec S1600000x1 32 := srcColOf (edgeRow0 a1)
/-- The target column of the edge list. -/
def dstCol (a1 : IVec S2x1600000 32) : IVec S1600000x1 32 := dstColOf (edgeRow1 a1)

/-! ## Gather, then scatter-add into zeros: the aggregate -/

theorem zeros16 (o : S100000x16.Idx) :
    (broadcastInDim S100000x16 ![] bcast_S_S100000x16 (constant (F := Ideal) S_ .f32 0x00000000#32)) o = 0 :=
  Ideal.ofBits_zero_f32
theorem zeros2 (o : S100000x2.Idx) :
    (broadcastInDim S100000x2 ![] bcast_S_S100000x2 (constant (F := Ideal) S_ .f32 0x00000000#32)) o = 0 :=
  Ideal.ofBits_zero_f32

/-- On 16 columns. -/
theorem host_aggr16 (y : Arr2 100000 16) (s d : IVec S1600000x1 32) :
    Host.scatterAdd (F := Ideal) scatter_S100000x16_S1600000x1_S1600000x16_1_0_0_1
      (broadcastInDim S100000x16 ![] bcast_S_S100000x16 (constant S_ .f32 0x00000000#32)) d
      (Host.gather gather_S100000x16_S1600000x1_S1600000x16_1_0_n_n_0_1_116 y s)
    = aggr (N := 100000) (by decide) s d y :=
  scatterAdd_gather_rows (N := 100000) (E := 1600000) (K := 16) (by decide)
    Facts₀.gather_S100000x16_S1600000x1_S1600000x16_1_0_n_n_0_1_116_wf
    Facts₀.scatter_S100000x16_S1600000x1_S1600000x16_1_0_0_1_wf _ zeros16 y s d

/-- On 2 columns. -/
theorem host_aggr2 (y : Arr2 100000 2) (s d : IVec S1600000x1 32) :
    Host.scatterAdd (F := Ideal) scatter_S100000x2_S1600000x1_S1600000x2_1_0_0_1
      (broadcastInDim S100000x2 ![] bcast_S_S100000x2 (constant S_ .f32 0x00000000#32)) d
      (Host.gather gather_S100000x2_S1600000x1_S1600000x2_1_0_n_n_0_1_12 y s)
    = aggr (N := 100000) (by decide) s d y :=
  scatterAdd_gather_rows (N := 100000) (E := 1600000) (K := 2) (by decide)
    Facts₀.gather_S100000x2_S1600000x1_S1600000x2_1_0_n_n_0_1_12_wf
    Facts₀.scatter_S100000x2_S1600000x1_S1600000x2_1_0_0_1_wf _ zeros2 y s d

/-! ## A rank-1 array reshaped to one row -/

theorem reshape_row {k : Nat} (b : Arr1 k) (h : (⟨1, ![k]⟩ : Shape).ShapeCasts ⟨2, ![1, k]⟩) :
    shapeCast (⟨2, ![1, k]⟩ : Shape) b h = asRow b := by
  funext o
  refine (shapeCast_addUnit_apply (![k]) b h o).trans (congrArg b ?_)
  funext a
  match a with
  | ⟨0, _⟩ => exact Fin.ext rfl

/-! ## The fold, boundary by boundary -/

variable (m : (ℓ : Loc nD τ sig) → Buf (Elt Ideal) ℓ) (ρ : Dev nD → PrngReg)

/-- The argument arrays as launched. -/
abbrev arg0 (c : Dev nD) : Arr2 100000 32 := m ((c : Thread nD τ).loc main_arg0)
abbrev arg1 (c : Dev nD) : IVec S2x1600000 32 := m ((c : Thread nD τ).loc main_arg1)
abbrev arg2 (c : Dev nD) : Arr2 16 32 := m ((c : Thread nD τ).loc main_arg2)
abbrev arg3 (c : Dev nD) : Arr2 16 32 := m ((c : Thread nD τ).loc main_arg3)
abbrev arg4 (c : Dev nD) : Arr1 16 := m ((c : Thread nD τ).loc main_arg4)
abbrev arg5 (c : Dev nD) : Arr2 2 16 := m ((c : Thread nD τ).loc main_arg5)
abbrev arg6 (c : Dev nD) : Arr2 2 16 := m ((c : Thread nD τ).loc main_arg6)
abbrev arg7 (c : Dev nD) : Arr1 2 := m ((c : Thread nD τ).loc main_arg7)

/-! ### After the first stretch: the edge list's two rows -/

theorem W1_v1 (c : Dev nD) : W1 m ρ c (Proc.devRef .tc main_v1) = edgeRow0 (arg1 m c) := by
  show StableHlo.after hostOps0 (W0 m ρ c) (Proc.devRef .tc main_v1) = _
  after_results
  rfl
theorem W1_v3 (c : Dev nD) : W1 m ρ c (Proc.devRef .tc main_v3) = edgeRow1 (arg1 m c) := by
  show StableHlo.after hostOps0 (W0 m ρ c) (Proc.devRef .tc main_v3) = _
  after_results
  rfl
theorem W1_arg0 (c : Dev nD) : W1 m ρ c (Proc.devRef .tc main_arg0) = arg0 m c := by
  show StableHlo.after hostOps0 (W0 m ρ c) (Proc.devRef .tc main_arg0) = _
  after_results
theorem W1_arg2 (c : Dev nD) : W1 m ρ c (Proc.devRef .tc main_arg2) = arg2 m c := by
  show StableHlo.after hostOps0 (W0 m ρ c) (Proc.devRef .tc main_arg2) = _
  after_results
theorem W1_arg3 (c : Dev nD) : W1 m ρ c (Proc.devRef .tc main_arg3) = arg3 m c := by
  show StableHlo.after hostOps0 (W0 m ρ c) (Proc.devRef .tc main_arg3) = _
  after_results
theorem W1_arg4 (c : Dev nD) : W1 m ρ c (Proc.devRef .tc main_arg4) = arg4 m c := by
  show StableHlo.after hostOps0 (W0 m ρ c) (Proc.devRef .tc main_arg4) = _
  after_results
theorem W1_arg5 (c : Dev nD) : W1 m ρ c (Proc.devRef .tc main_arg5) = arg5 m c := by
  show StableHlo.after hostOps0 (W0 m ρ c) (Proc.devRef .tc main_arg5) = _
  after_results
theorem W1_arg6 (c : Dev nD) : W1 m ρ c (Proc.devRef .tc main_arg6) = arg6 m c := by
  show StableHlo.after hostOps0 (W0 m ρ c) (Proc.devRef .tc main_arg6) = _
  after_results
theorem W1_arg7 (c : Dev nD) : W1 m ρ c (Proc.devRef .tc main_arg7) = arg7 m c := by
  show StableHlo.after hostOps0 (W0 m ρ c) (Proc.devRef .tc main_arg7) = _
  after_results

/-! ### After the first pallas_call: the two products, everything else as it was -/

theorem W2_v4_0 (c : Dev nD) : W2 m ρ c (Proc.devRef .tc main_v4_0) = matT (arg0 m c) (arg2 m c) :=
  (W2_arr m ρ c 3).trans ((reg0_out3 (V1 m ρ) c).trans (congrArg₂ matT (W1_arg0 m ρ c) (W1_arg2 m ρ c)))
theorem W2_v4_1 (c : Dev nD) : W2 m ρ c (Proc.devRef .tc main_v4_1) = matT (arg0 m c) (arg3 m c) :=
  (W2_arr m ρ c 4).trans ((reg0_out4 (V1 m ρ) c).trans (congrArg₂ matT (W1_arg0 m ρ c) (W1_arg3 m ρ c)))
theorem W2_v1 (c : Dev nD) : W2 m ρ c (Proc.devRef .tc main_v1) = edgeRow0 (arg1 m c) :=
  (W2_of_ne m ρ c main_v1 (by decide)).trans (W1_v1 m ρ c)
theorem W2_v3 (c : Dev nD) : W2 m ρ c (Proc.devRef .tc main_v3) = edgeRow1 (arg1 m c) :=
  (W2_of_ne m ρ c main_v3 (by decide)).trans (W1_v3 m ρ c)
theorem W2_arg4 (c : Dev nD) : W2 m ρ c (Proc.devRef .tc main_arg4) = arg4 m c :=
  (W2_of_ne m ρ c main_arg4 (by decide)).trans (W1_arg4 m ρ c)
theorem W2_arg5 (c : Dev nD) : W2 m ρ c (Proc.devRef .tc main_arg5) = arg5 m c :=
  (W2_of_ne m ρ c main_arg5 (by decide)).trans (W1_arg5 m ρ c)
theorem W2_arg6 (c : Dev nD) : W2 m ρ c (Proc.devRef .tc main_arg6) = arg6 m c :=
  (W2_of_ne m ρ c main_arg6 (by decide)).trans (W1_arg6 m ρ c)
theorem W2_arg7 (c : Dev nD) : W2 m ρ c (Proc.devRef .tc main_arg7) = arg7 m c :=
  (W2_of_ne m ρ c main_arg7 (by decide)).trans (W1_arg7 m ρ c)

/-! ### After the second stretch: the aggregate of the first product, the bias as a row -/

theorem W3_v14 (c : Dev nD) : W3 m ρ c (Proc.devRef .tc main_v14)
    = aggr (N := 100000) (by decide) (srcCol (arg1 m c)) (dstCol (arg1 m c)) (matT (arg0 m c) (arg2 m c)) := by
  show StableHlo.after hostOps1 (W2 m ρ c) (Proc.devRef .tc main_v14) = _
  after_results
  rw [W2_v1 m ρ c, W2_v3 m ρ c, W2_v4_0 m ρ c]
  exact host_aggr16 _ _ _
theorem W3_v4_1 (c : Dev nD) : W3 m ρ c (Proc.devRef .tc main_v4_1) = matT (arg0 m c) (arg3 m c) := by
  show StableHlo.after hostOps1 (W2 m ρ c) (Proc.devRef .tc main_v4_1) = _
  after_results
  exact W2_v4_1 m ρ c
theorem W3_v15 (c : Dev nD) : W3 m ρ c (Proc.devRef .tc main_v15) = asRow (arg4 m c) := by
  show StableHlo.after hostOps1 (W2 m ρ c) (Proc.devRef .tc main_v15) = _
  after_results
  rw [W2_arg4 m ρ c]
  exact reshape_row (arg4 m c) shapeCasts_S16_S1x16
theorem W3_v1 (c : Dev nD) : W3 m ρ c (Proc.devRef .tc main_v1) = edgeRow0 (arg1 m c) := by
  show StableHlo.after hostOps1 (W2 m ρ c) (Proc.devRef .tc main_v1) = _
  after_results
  exact W2_v1 m ρ c
theorem W3_v3 (c : Dev nD) : W3 m ρ c (Proc.devRef .tc main_v3) = edgeRow1 (arg1 m c) := by
  show StableHlo.after hostOps1 (W2 m ρ c) (Proc.devRef .tc main_v3) = _
  after_results
  exact W2_v3 m ρ c
theorem W3_arg5 (c : Dev nD) : W3 m ρ c (Proc.devRef .tc main_arg5) = arg5 m c := by
  show StableHlo.after hostOps1 (W2 m ρ c) (Proc.devRef .tc main_arg5) = _
  after_results
  exact W2_arg5 m ρ c
theorem W3_arg6 (c : Dev nD) : W3 m ρ c (Proc.devRef .tc main_arg6) = arg6 m c := by
  show StableHlo.after hostOps1 (W2 m ρ c) (Proc.devRef .tc main_arg6) = _
  after_results
  exact W2_arg6 m ρ c
theorem W3_arg7 (c : Dev nD) : W3 m ρ c (Proc.devRef .tc main_arg7) = arg7 m c := by
  show StableHlo.after hostOps1 (W2 m ρ c) (Proc.devRef .tc main_arg7) = _
  after_results
  exact W2_arg7 m ρ c

/-! ### After the second pallas_call: the first round's output -/

/-- The hidden features: the positive part of the first round, products before sums. -/
abbrev hidden (c : Dev nD) : Arr2 100000 16 :=
  relu (convKArr (N := 100000) (by decide) (srcCol (arg1 m c)) (dstCol (arg1 m c)) (arg0 m c) (arg2 m c) (arg3 m c) (arg4 m c))

theorem W4_v16 (c : Dev nD) : W4 m ρ c (Proc.devRef .tc main_v16) = hidden m c := by
  refine (W4_arr m ρ c 3).trans ((reg1_out3 (V3 m ρ) c).trans ?_)
  show relu (addBias (W3 m ρ c (Proc.devRef .tc main_v14)) (W3 m ρ c (Proc.devRef .tc main_v4_1)) (W3 m ρ c (Proc.devRef .tc main_v15))) = _
  rw [W3_v14 m ρ c, W3_v4_1 m ρ c, W3_v15 m ρ c]
  exact congrArg relu (convKArr_eq (N := 100000) (by decide) (srcCol (arg1 m c)) (dstCol (arg1 m c)) (arg0 m c) (arg2 m c) (arg3 m c) (arg4 m c)).symm
theorem W4_v1 (c : Dev nD) : W4 m ρ c (Proc.devRef .tc main_v1) = edgeRow0 (arg1 m c) :=
  (W4_of_ne m ρ c main_v1 (by decide)).trans (W3_v1 m ρ c)
theorem W4_v3 (c : Dev nD) : W4 m ρ c (Proc.devRef .tc main_v3) = edgeRow1 (arg1 m c) :=
  (W4_of_ne m ρ c main_v3 (by decide)).trans (W3_v3 m ρ c)
theorem W4_arg5 (c : Dev nD) : W4 m ρ c (Proc.devRef .tc main_arg5) = arg5 m c :=
  (W4_of_ne m ρ c main_arg5 (by decide)).trans (W3_arg5 m ρ c)
theorem W4_arg6 (c : Dev nD) : W4 m ρ c (Proc.devRef .tc main_arg6) = arg6 m c :=
  (W4_of_ne m ρ c main_arg6 (by decide)).trans (W3_arg6 m ρ c)
theorem W4_arg7 (c : Dev nD) : W4 m ρ c (Proc.devRef .tc main_arg7) = arg7 m c :=
  (W4_of_ne m ρ c main_arg7 (by decide)).trans (W3_arg7 m ρ c)

/-! ### After the third pallas_call: the hidden features times the second round's weights -/

theorem W5_v17_0 (c : Dev nD) : W5 m ρ c (Proc.devRef .tc main_v17_0) = matT (hidden m c) (arg5 m c) :=
  (W5_arr m ρ c 3).trans ((reg2_out3 (V4 m ρ) c).trans (congrArg₂ matT (W4_v16 m ρ c) (W4_arg5 m ρ c)))
theorem W5_v17_1 (c : Dev nD) : W5 m ρ c (Proc.devRef .tc main_v17_1) = matT (hidden m c) (arg6 m c) :=
  (W5_arr m ρ c 4).trans ((reg2_out4 (V4 m ρ) c).trans (congrArg₂ matT (W4_v16 m ρ c) (W4_arg6 m ρ c)))
theorem W5_v1 (c : Dev nD) : W5 m ρ c (Proc.devRef .tc main_v1) = edgeRow0 (arg1 m c) :=
  (W5_of_ne m ρ c main_v1 (by decide)).trans (W4_v1 m ρ c)
theorem W5_v3 (c : Dev nD) : W5 m ρ c (Proc.devRef .tc main_v3) = edgeRow1 (arg1 m c) :=
  (W5_of_ne m ρ c main_v3 (by decide)).trans (W4_v3 m ρ c)
theorem W5_arg7 (c : Dev nD) : W5 m ρ c (Proc.devRef .tc main_arg7) = arg7 m c :=
  (W5_of_ne m ρ c main_arg7 (by decide)).trans (W4_arg7 m ρ c)

/-! ### After the third stretch: the aggregate of the second product, the second bias as a row -/

theorem W6_v27 (c : Dev nD) : W6 m ρ c (Proc.devRef .tc main_v27)
    = aggr (N := 100000) (by decide) (srcCol (arg1 m c)) (dstCol (arg1 m c)) (matT (hidden m c) (arg5 m c)) := by
  show StableHlo.after hostOps3 (W5 m ρ c) (Proc.devRef .tc main_v27) = _
  after_results
  rw [W5_v1 m ρ c, W5_v3 m ρ c, W5_v17_0 m ρ c]
  exact host_aggr2 _ _ _
theorem W6_v17_1 (c : Dev nD) : W6 m ρ c (Proc.devRef .tc main_v17_1) = matT (hidden m c) (arg6 m c) := by
  show StableHlo.after hostOps3 (W5 m ρ c) (Proc.devRef .tc main_v17_1) = _
  after_results
  exact W5_v17_1 m ρ c
theorem W6_v28 (c : Dev nD) : W6 m ρ c (Proc.devRef .tc main_v28) = asRow (arg7 m c) := by
  show StableHlo.after hostOps3 (W5 m ρ c) (Proc.devRef .tc main_v28) = _
  after_results
  rw [W5_arg7 m ρ c]
  exact reshape_row (arg7 m c) shapeCasts_S2_S1x2

/-! ### After the fourth pallas_call: the result -/

/-- THE KERNEL PROGRAM'S RESULT: two rounds of the graph convolution, products before sums, of the arguments as
    launched. -/
theorem kernel_value (c : Dev nD) : W7 m ρ c (Proc.devRef .tc main_v29)
    = netK (N := 100000) (by decide) (srcCol (arg1 m c)) (dstCol (arg1 m c)) (arg0 m c) (arg2 m c) (arg3 m c) (arg4 m c)
        (arg5 m c) (arg6 m c) (arg7 m c) := by
  refine (W7_arr m ρ c 3).trans ((reg3_out3 (V6 m ρ) c).trans ?_)
  show addBias (W6 m ρ c (Proc.devRef .tc main_v27)) (W6 m ρ c (Proc.devRef .tc main_v17_1)) (W6 m ρ c (Proc.devRef .tc main_v28)) = _
  rw [W6_v27 m ρ c, W6_v17_1 m ρ c, W6_v28 m ρ c]
  exact (convKArr_eq (N := 100000) (by decide) (srcCol (arg1 m c)) (dstCol (arg1 m c)) (hidden m c) (arg5 m c) (arg6 m c) (arg7 m c)).symm

end Cert.KernelIdeal.KVal

end
-- ==== Proof.RValue.lean ====
/-
  The reference program's result is two rounds of the graph convolution, sums before products.
-/
import proofs.«418170_j446676599185_3_alg».proof.Proof.Gen.ReferenceIdeal.Read
import proofs.«418170_j446676599185_3_alg».proof.Proof.Spec
import proofs.«418170_j446676599185_3_alg».proof.Proof.Aggr

noncomputable section

open scoped BigOperators

namespace Cert.ReferenceIdeal.RefValue

open Cert.ReferenceIdeal Cert.ReferenceIdeal.Gen Cert.ReferenceIdeal.Read GraphConv
open Idealize.ShloMosaic Idealize.ShloMosaic.ValueIdx

/-- The start-index column of the second round is the first round's. -/
theorem v32_eq (x1 : (⟨S2x1600000, .i32⟩ : BufTy).Contents (Elt Ideal)) :
    val_main_v32 (F := Ideal) x1 = val_main_v9 (F := Ideal) x1 := rfl

/-- The target-index column of the second round is the first round's. -/
theorem v35_eq (x1 : (⟨S2x1600000, .i32⟩ : BufTy).Contents (Elt Ideal)) :
    val_main_v35 (F := Ideal) x1 = val_main_v12 (F := Ideal) x1 := rfl

/-- First round: gathering the rows of the node features and scatter-adding them into zeros is the aggregate. -/
theorem v13_eq (x0 : (⟨S100000x32, .f32⟩ : BufTy).Contents (Elt Ideal)) (x1 : (⟨S2x1600000, .i32⟩ : BufTy).Contents (Elt Ideal)) :
    val_main_v13 (F := Ideal) x0 x1
      = aggr (N := 100000) (E := 1600000) (K := 32) (by decide) (val_main_v9 (F := Ideal) x1) (val_main_v12 (F := Ideal) x1) x0 := by
  unfold val_main_v13 val_main_v10
  exact scatterAdd_gather_rows (N := 100000) (E := 1600000) (K := 32) (by decide)
    Facts₀.gather_S100000x32_S1600000x1_S1600000x32_1_0_n_n_0_1_132_wf
    Facts₀.scatter_S100000x32_S1600000x1_S1600000x32_1_0_0_1_wf
    (val_main_v11 (F := Ideal))
    (fun o => by rw [val_main_v11_apply, val_main_cst_apply]; exact Ideal.ofBits_zero_f32)
    x0 (val_main_v9 (F := Ideal) x1) (val_main_v12 (F := Ideal) x1)

/-- Second round: the same over the hidden features. -/
theorem v36_eq (x0 : (⟨S100000x32, .f32⟩ : BufTy).Contents (Elt Ideal)) (x1 : (⟨S2x1600000, .i32⟩ : BufTy).Contents (Elt Ideal))
    (x2 x3 : (⟨S16x32, .f32⟩ : BufTy).Contents (Elt Ideal)) (x4 : (⟨S16, .f32⟩ : BufTy).Contents (Elt Ideal)) :
    val_main_v36 (F := Ideal) x0 x1 x2 x3 x4
      = aggr (N := 100000) (E := 1600000) (K := 16) (by decide) (val_main_v9 (F := Ideal) x1) (val_main_v12 (F := Ideal) x1)
          (val_main_v22 (F := Ideal) x0 x1 x2 x3 x4) := by
  unfold val_main_v36 val_main_v33
  rw [v32_eq, v35_eq]
  generalize val_main_v22 (F := Ideal) x0 x1 x2 x3 x4 = h
  exact scatterAdd_gather_rows (N := 100000) (E := 1600000) (K := 16) (by decide)
    Facts₀.gather_S100000x16_S1600000x1_S1600000x16_1_0_n_n_0_1_116_wf
    Facts₀.scatter_S100000x16_S1600000x1_S1600000x16_1_0_0_1_wf
    (val_main_v34 (F := Ideal))
    (fun o => by rw [val_main_v34_apply, val_main_cst_3_apply]; exact Ideal.ofBits_zero_f32)
    h (val_main_v9 (F := Ideal) x1) (val_main_v12 (F := Ideal) x1)

/-! Index functions of the dense stages, at an index given by its coordinates. -/

theorem lidx15 (p : Fin 100000) (q : Fin 16) (k : Fin 32) : lidx_main_v15 (ix2 p q) k = ix2 p k :=
  funext fun a => Fin.ext (by match a with | ⟨0, _⟩ => rfl | ⟨1, _⟩ => rfl)
theorem ridx15 (p : Fin 100000) (q : Fin 16) (k : Fin 32) : ridx_main_v15 (ix2 p q) k = ix2 k q :=
  funext fun a => Fin.ext (by match a with | ⟨0, _⟩ => rfl | ⟨1, _⟩ => rfl)
theorem lidx17 (p : Fin 100000) (q : Fin 16) (k : Fin 32) : lidx_main_v17 (ix2 p q) k = ix2 p k :=
  funext fun a => Fin.ext (by match a with | ⟨0, _⟩ => rfl | ⟨1, _⟩ => rfl)
theorem ridx17 (p : Fin 100000) (q : Fin 16) (k : Fin 32) : ridx_main_v17 (ix2 p q) k = ix2 k q :=
  funext fun a => Fin.ext (by match a with | ⟨0, _⟩ => rfl | ⟨1, _⟩ => rfl)
theorem idx14 (k : Fin 32) (q : Fin 16) : idx_main_v14 (ix2 k q) = ix2 q k :=
  funext fun a => Fin.ext (by match a with | ⟨0, _⟩ => rfl | ⟨1, _⟩ => rfl)
theorem idx16 (k : Fin 32) (q : Fin 16) : idx_main_v16 (ix2 k q) = ix2 q k :=
  funext fun a => Fin.ext (by match a with | ⟨0, _⟩ => rfl | ⟨1, _⟩ => rfl)
theorem idx19_20 (p : Fin 100000) (q : Fin 16) : idx_main_v19 (idx_main_v20 (ix2 p q)) = ix1 q :=
  funext fun a => Fin.ext (by match a with | ⟨0, _⟩ => rfl)

theorem lidx38 (p : Fin 100000) (q : Fin 2) (k : Fin 16) : lidx_main_v38 (ix2 p q) k = ix2 p k :=
  funext fun a => Fin.ext (by match a with | ⟨0, _⟩ => rfl | ⟨1, _⟩ => rfl)
theorem ridx38 (p : Fin 100000) (q : Fin 2) (k : Fin 16) : ridx_main_v38 (ix2 p q) k = ix2 k q :=
  funext fun a => Fin.ext (by match a with | ⟨0, _⟩ => rfl | ⟨1, _⟩ => rfl)
theorem lidx40 (p : Fin 100000) (q : Fin 2) (k : Fin 16) : lidx_main_v40 (ix2 p q) k = ix2 p k :=
  funext fun a => Fin.ext (by match a with | ⟨0, _⟩ => rfl | ⟨1, _⟩ => rfl)
theorem ridx40 (p : Fin 100000) (q : Fin 2) (k : Fin 16) : ridx_main_v40 (ix2 p q) k = ix2 k q :=
  funext fun a => Fin.ext (by match a with | ⟨0, _⟩ => rfl | ⟨1, _⟩ => rfl)
theorem idx37 (k : Fin 16) (q : Fin 2) : idx_main_v37 (ix2 k q) = ix2 q k :=
  funext fun a => Fin.ext (by match a with | ⟨0, _⟩ => rfl | ⟨1, _⟩ => rfl)
theorem idx39 (k : Fin 16) (q : Fin 2) : idx_main_v39 (ix2 k q) = ix2 q k :=
  funext fun a => Fin.ext (by match a with | ⟨0, _⟩ => rfl | ⟨1, _⟩ => rfl)
theorem idx42_43 (p : Fin 100000) (q : Fin 2) : idx_main_v42 (idx_main_v43 (ix2 p q)) = ix1 q :=
  funext fun a => Fin.ext (by match a with | ⟨0, _⟩ => rfl)

/-- The first round with its positive part: the hidden features. -/
theorem v22_eq (x0 : (⟨S100000x32, .f32⟩ : BufTy).Contents (Elt Ideal)) (x1 : (⟨S2x1600000, .i32⟩ : BufTy).Contents (Elt Ideal))
    (x2 x3 : (⟨S16x32, .f32⟩ : BufTy).Contents (Elt Ideal)) (x4 : (⟨S16, .f32⟩ : BufTy).Contents (Elt Ideal)) :
    val_main_v22 (F := Ideal) x0 x1 x2 x3 x4
      = relu (convRArr (N := 100000) (E := 1600000) (Din := 32) (Dout := 16) (by decide)
          (val_main_v9 (F := Ideal) x1) (val_main_v12 (F := Ideal) x1) x0 x2 x3 x4) := by
  funext o
  obtain ⟨p, q, rfl⟩ : ∃ (p : Fin 100000) (q : Fin 16), o = ix2 p q := ⟨o 0, o 1, eq_ix2 o⟩
  rw [val_main_v22_apply, val_main_v21_apply, val_main_v18_apply, val_main_v15_apply, val_main_v17_apply,
    val_main_v20_apply, val_main_v19_apply, val_main_call0_v0_apply, val_main_call0_cst_apply, v13_eq]
  simp only [val_main_v14_apply, val_main_v16_apply, lidx15, ridx15, lidx17, ridx17, idx14, idx16, idx19_20,
    Ideal.addf_def, Ideal.maximumf_def, Ideal.ofBits_def, Ideal.ofBits_zero_f32]
  rfl

/-- The second round over the hidden features. -/
theorem v44_eq (x0 : (⟨S100000x32, .f32⟩ : BufTy).Contents (Elt Ideal)) (x1 : (⟨S2x1600000, .i32⟩ : BufTy).Contents (Elt Ideal))
    (x2 x3 : (⟨S16x32, .f32⟩ : BufTy).Contents (Elt Ideal)) (x4 : (⟨S16, .f32⟩ : BufTy).Contents (Elt Ideal))
    (x5 x6 : (⟨S2x16, .f32⟩ : BufTy).Contents (Elt Ideal)) (x7 : (⟨S2, .f32⟩ : BufTy).Contents (Elt Ideal)) :
    val_main_v44 (F := Ideal) x0 x1 x2 x3 x4 x5 x6 x7
      = convRArr (N := 100000) (E := 1600000) (Din := 16) (Dout := 2) (by decide)
          (val_main_v9 (F := Ideal) x1) (val_main_v12 (F := Ideal) x1) (val_main_v22 (F := Ideal) x0 x1 x2 x3 x4) x5 x6 x7 := by
  funext o
  obtain ⟨p, q, rfl⟩ : ∃ (p : Fin 100000) (q : Fin 2), o = ix2 p q := ⟨o 0, o 1, eq_ix2 o⟩
  rw [val_main_v44_apply, val_main_v41_apply, val_main_v38_apply, val_main_v40_apply,
    val_main_v43_apply, val_main_v42_apply, v36_eq]
  generalize val_main_v22 (F := Ideal) x0 x1 x2 x3 x4 = h
  simp only [val_main_v37_apply, val_main_v39_apply, lidx38, ridx38, lidx40, ridx40, idx37, idx39, idx42_43,
    Ideal.addf_def]
  rfl

/-- The reference's result array, as a function of its eight argument arrays, is `netR` over the two index columns
    the program computes from the edge list. -/
theorem ref_value (x0 : (⟨S100000x32, .f32⟩ : BufTy).Contents (Elt Ideal)) (x1 : (⟨S2x1600000, .i32⟩ : BufTy).Contents (Elt Ideal))
    (x2 x3 : (⟨S16x32, .f32⟩ : BufTy).Contents (Elt Ideal)) (x4 : (⟨S16, .f32⟩ : BufTy).Contents (Elt Ideal))
    (x5 x6 : (⟨S2x16, .f32⟩ : BufTy).Contents (Elt Ideal)) (x7 : (⟨S2, .f32⟩ : BufTy).Contents (Elt Ideal)) :
    val_main_v44 (F := Ideal) x0 x1 x2 x3 x4 x5 x6 x7
      = netR (N := 100000) (E := 1600000) (Din := 32) (Dhid := 16) (Dout := 2) (by decide)
          (val_main_v9 (F := Ideal) x1) (val_main_v12 (F := Ideal) x1) x0 x2 x3 x4 x5 x6 x7 := by
  rw [v44_eq, v22_eq]
  rfl

end Cert.ReferenceIdeal.RefValue

end
-- ==== Proof.Algebra.lean ====
/-
  The two orders of a graph-convolution round agree on real entries, and two rounds with the positive part between
  them agree as well: the first round's output is again real, so the second round's exchange is licensed too.
-/
import proofs.«418170_j446676599185_3_alg».proof.Proof.Spec

noncomputable section

open scoped BigOperators

namespace GraphConv

open Idealize.ShloMosaic Idealize.ShloMosaic.ValueIdx

variable {N E Din Dhid Dout : Nat}

/-! ### The real numbers inside the extended reals are closed under the operations of a round -/

/-- A sum of two reals is real. -/
theorem IsReal.add {a b : EReal} (ha : IsReal a) (hb : IsReal b) : IsReal (a + b) := by
  obtain ⟨r, rfl⟩ := ha
  obtain ⟨t, rfl⟩ := hb
  exact ⟨r + t, (EReal.coe_add r t).symm⟩

/-- A product of two reals is real. -/
theorem IsReal.mul {a b : EReal} (ha : IsReal a) (hb : IsReal b) : IsReal (a * b) := by
  obtain ⟨r, rfl⟩ := ha
  obtain ⟨t, rfl⟩ := hb
  exact ⟨r * t, (EReal.coe_mul r t).symm⟩

/-- The inclusion of the reals carries a finite sum to the finite sum of the images. -/
theorem coe_finsum {ι : Type*} (S : Finset ι) (f : ι → ℝ) :
    ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- A finite sum of reals is real. -/
theorem IsReal.sum {ι : Type*} (S : Finset ι) (f : ι → EReal) (h : ∀ i ∈ S, IsReal (f i)) :
    IsReal (∑ i ∈ S, f i) := by
  classical
  induction S using Finset.induction_on with
  | empty => exact ⟨0, by simp⟩
  | insert a S ha ih =>
    rw [Finset.sum_insert ha]
    exact IsReal.add (h a (Finset.mem_insert_self a S)) (ih fun i hi => h i (Finset.mem_insert_of_mem hi))

/-- The positive part of a real is real: the inclusion of the reals is monotone, so it carries a maximum to the
    maximum of the images, and zero is the image of zero. -/
theorem IsReal.max_zero {a : EReal} (ha : IsReal a) : IsReal (max a 0) := by
  obtain ⟨r, rfl⟩ := ha
  refine ⟨max r 0, ?_⟩
  rw [EReal.coe_strictMono.monotone.map_max, EReal.coe_zero]

/-- Over real entries, a sum over edges of sums over columns of products is the sum over columns of (the sum over
    edges) times the weight: exchange the two finite sums, then pull the common factor out of the inner one. -/
theorem sum_sum_mul_eq {ι κ : Type*} (S : Finset ι) (T : Finset κ) (f : ι → κ → EReal) (w : κ → EReal)
    (hf : ∀ e k, IsReal (f e k)) (hw : ∀ k, IsReal (w k)) :
    (∑ e ∈ S, ∑ k ∈ T, f e k * w k) = ∑ k ∈ T, (∑ e ∈ S, f e k) * w k := by
  choose fr hfr using hf
  choose wr hwr using hw
  simp only [hfr, hwr, ← EReal.coe_mul, ← coe_finsum]
  rw [Finset.sum_comm]
  simp only [Finset.sum_mul]

/-- Summing the gathered rows first and multiplying once, or multiplying every row and summing the products: the same
    number when the features and the weights are real. -/
theorem convK_eq_convR (hN : 0 < N) (s d : Col E) (x : Arr2 N Din) (wrel wroot : Arr2 Dout Din) (b : Arr1 Dout)
    (hx : ∀ o, IsReal (x o)) (hw : ∀ o, IsReal (wrel o)) (i : Fin N) (j : Fin Dout) :
    convK hN s d x wrel wroot b i j = convR hN s d x wrel wroot b i j := by
  unfold convK convR
  rw [sum_sum_mul_eq (hits d i) Finset.univ (fun e k => x (ix2 (srcRow hN s e) k)) (fun k => wrel (ix2 j k))
    (fun e k => hx _) (fun k => hw _)]

/-- A round of real features, weights and bias is real, and so is its positive part. -/
theorem relu_convKArr_real (hN : 0 < N) (s d : Col E) (x : Arr2 N Din) (wrel wroot : Arr2 Dout Din) (b : Arr1 Dout)
    (hx : ∀ o, IsReal (x o)) (hwrel : ∀ o, IsReal (wrel o)) (hwroot : ∀ o, IsReal (wroot o)) (hb : ∀ o, IsReal (b o)) :
    ∀ o, IsReal (relu (convKArr hN s d x wrel wroot b) o) := by
  intro o
  unfold relu convKArr convK
  refine IsReal.max_zero (IsReal.add (IsReal.add ?_ ?_) (hb _))
  · exact IsReal.sum _ _ fun e _ => IsReal.sum _ _ fun k _ => IsReal.mul (hx _) (hwrel _)
  · exact IsReal.sum _ _ fun k _ => IsReal.mul (hx _) (hwroot _)

/-- TWO ROUNDS: products before sums and sums before products give the same array, for real features, real first-round
    weights and bias, and real second-round neighbour weights. -/
theorem netK_eq_netR (hN : 0 < N) (s d : Col E) (x : Arr2 N Din) (w1rel w1root : Arr2 Dhid Din) (b1 : Arr1 Dhid)
    (w2rel w2root : Arr2 Dout Dhid) (b2 : Arr1 Dout)
    (hx : ∀ o, IsReal (x o)) (hw1rel : ∀ o, IsReal (w1rel o)) (hw1root : ∀ o, IsReal (w1root o))
    (hb1 : ∀ o, IsReal (b1 o)) (hw2rel : ∀ o, IsReal (w2rel o)) :
    netK hN s d x w1rel w1root b1 w2rel w2root b2 = netR hN s d x w1rel w1root b1 w2rel w2root b2 := by
  -- the first round: the two orders give the same array, entry by entry
  have h1 : convKArr hN s d x w1rel w1root b1 = convRArr hN s d x w1rel w1root b1 := by
    funext o
    exact convK_eq_convR hN s d x w1rel w1root b1 hx hw1rel (row o) (col o)
  unfold netK netR
  rw [← h1]
  -- the second round: its input is the positive part of a real array, hence real
  funext o
  exact convK_eq_convR hN s d _ w2rel w2root b2
    (relu_convKArr_real hN s d x w1rel w1root b1 hx hw1rel hw1root hb1) hw2rel (row o) (col o)

end GraphConv

end
-- ==== Proof.Finite.lean ====
/-
  Under the precondition every entry of the float arguments is a real number: each conjunct of the printed predicate
  says that the absolute value of every entry of one array is below +infinity.
-/
import proofs.«418170_j446676599185_3_alg».proof.Pre_finite_inputs
import proofs.«418170_j446676599185_3_alg».proof.Proof.Spec
import Idealize.ShloMosaic.Lib.ReduceAll
import Idealize.ShloMosaic.PureOps.Ideal.Laws

noncomputable section

namespace Cert.Finite

open Cert.Pre_finite_inputs GraphConv
open Idealize.ShloMosaic Idealize.ShloMosaic.ValueIdx

/-- The pattern 0x7F800000 denotes +infinity. -/
theorem inf_eq_top : Ideal.ofBits .f32 0x7F800000#32 = (⊤ : EReal) := by simp [Ideal.ofBits, Ideal.ieee]

/-- An extended real whose absolute value, max x (-x), compares strictly below +infinity is a real number:
    at +infinity the maximum is +infinity, at -infinity its negation is, and neither is below +infinity. -/
theorem isReal_of_abs_lt (x : EReal)
    (h : Ideal.cmp .olt (max x (-x)) (Ideal.ofBits .f32 0x7F800000#32) = 1#1) : IsReal x := by
  rw [inf_eq_top] at h
  unfold Ideal.cmp at h
  have hlt : max x (-x) < ⊤ := by
    by_contra hn
    simp [hn] at h
  induction x using EReal.rec with
  | bot => simp at hlt
  | coe r => exact ⟨r, rfl⟩
  | top => simp at hlt

/-- One conjunct of the predicate, at any shape: if the conjunction over all entries of "|a| < +infinity" is 1,
    then every entry of `a` is a real number. The conjunction has a single index, so each entry's comparison
    reduces into it and is itself 1; the broadcast constant read at any index is the constant. -/
theorem isReal_of_all {s : Shape} {axes : List (Fin s.rank)} (a : FVec Ideal s .f32)
    (hb : S_.BroadcastsInDim s (![] : Fin 0 → Fin s.rank)) (hr : s.ReducesTo axes S_) (hu : 0 < S_.numel)
    (init : IVec S_ 1)
    (e : Host.reduce IntOp.andi
          (cmpf .olt (Host.absf a) (broadcastInDim s ![] hb (constant S_ .f32 0x7F800000#32))) init hr hu ix0 = 1#1) :
    ∀ o, IsReal (a o) := by
  intro o
  haveI : Subsingleton S_.Idx := ⟨fun a b => funext fun d => d.elim0⟩
  have ho := Host.reduce_andi_all _ init hr hu ix0 e o
  exact isReal_of_abs_lt (a o) ho

/-- The conjunction of two one-bit arrays, read at an index, is the conjunction of the two bits there. -/
theorem andi_at {s : Shape} (x y : IVec s 1) (j : s.Idx) : andi x y j = IntOp.andi (x j) (y j) := rfl

/-- The printed precondition, all ones, makes every entry of the feature array, of the first round's two weight
    arrays and bias, and of the second round's neighbour weights a real number. -/
theorem real_of_pre [Cert.Pre_finite_inputs.Facts]
    (a0 : FVec Ideal S100000x32 .f32) (a1 : IVec S2x1600000 32) (a2 a3 : FVec Ideal S16x32 .f32) (a4 : FVec Ideal S16 .f32)
    (a5 a6 : FVec Ideal S2x16 .f32) (a7 : FVec Ideal S2 .f32)
    (h : Cert.Pre_finite_inputs.fn (F := Ideal) a0 a1 a2 a3 a4 a5 a6 a7 = fun _ => 1#1) :
    (∀ o, IsReal (a0 o)) ∧ (∀ o, IsReal (a2 o)) ∧ (∀ o, IsReal (a3 o)) ∧ (∀ o, IsReal (a4 o)) ∧ (∀ o, IsReal (a5 o)) := by
  -- The predicate read at its one index is a seven-fold conjunction, one conjunct per float argument.
  have h0 := congrFun h ix0
  dsimp only [fn, fn_part1] at h0
  simp only [andi_at, IntOp.andi_eq_one] at h0
  obtain ⟨⟨⟨⟨⟨⟨e0, e2⟩, e3⟩, e4⟩, e5⟩, e6⟩, e7⟩ := h0
  exact ⟨isReal_of_all a0 _ _ _ _ e0, isReal_of_all a2 _ _ _ _ e2, isReal_of_all a3 _ _ _ _ e3,
    isReal_of_all a4 _ _ _ _ e4, isReal_of_all a5 _ _ _ _ e5⟩

end Cert.Finite

end
-- ==== Proof.lean ====
/-
  The certificate: the kernel program (four pallas_calls among three stretches of host operations) and the jnp
  reference compute the same two rounds of a graph convolution with sum aggregation.

  The reference sums the gathered neighbour rows over the edges and then multiplies by the weights; the kernel
  multiplies every node's row by the weights first and sums the products over the edges. At the ideal instance the
  kernel's result buffer ends at `netK` of the arguments (the fold through its regions, read boundary by boundary)
  and the reference's at `netR` (its run, read stage by stage). The two are one array because the precondition makes
  every entry of the features and of the weights a real number: there a finite sum over edges commutes with the finite
  sum of a matrix product, and the first round's output is again real, so the second round's exchange is licensed too.
  The three frames are the generated ones; the idealization rewrote nothing.
-/
import proofs.«418170_j446676599185_3_alg».proof.Defs
import proofs.«418170_j446676599185_3_alg».proof.Proof.Gen.Kernel
import proofs.«418170_j446676599185_3_alg».proof.Proof.Gen.Kernel.Frame
import proofs.«418170_j446676599185_3_alg».proof.Proof.Gen.KernelIdeal
import proofs.«418170_j446676599185_3_alg».proof.Proof.Gen.KernelIdeal.Frame
import proofs.«418170_j446676599185_3_alg».proof.Proof.Gen.ReferenceIdeal
import proofs.«418170_j446676599185_3_alg».proof.Proof.Gen.ReferenceIdeal.Run
import proofs.«418170_j446676599185_3_alg».proof.Proof.Gen.ReferenceIdeal.Read
import proofs.«418170_j446676599185_3_alg».proof.Proof.Gen.Pre_finite_inputs
import proofs.«418170_j446676599185_3_alg».proof.Proof.KRun
import proofs.«418170_j446676599185_3_alg».proof.Proof.KValue
import proofs.«418170_j446676599185_3_alg».proof.Proof.RValue
import proofs.«418170_j446676599185_3_alg».proof.Proof.Algebra
import proofs.«418170_j446676599185_3_alg».proof.Proof.Finite
import Idealize.ShloMosaic.Adequacy
import Idealize.ShloMosaic.Init

noncomputable section

namespace Cert.Proof

open Idealize.ShloMosaic Idealize.ShloMosaic.TcCoe Idealize.SL.Sem GraphConv

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The two programs' index columns are one term of the edge list. -/
theorem srcCol_eq (a1 : Cert.KernelIdeal.S2x1600000.Idx → BitVec 32) :
    Cert.KernelIdeal.KVal.srcCol a1 = Cert.ReferenceIdeal.Read.val_main_v9 (F := Ideal) a1 := rfl
theorem dstCol_eq (a1 : Cert.KernelIdeal.S2x1600000.Idx → BitVec 32) :
    Cert.KernelIdeal.KVal.dstCol a1 = Cert.ReferenceIdeal.Read.val_main_v12 (F := Ideal) a1 := rfl

/-- From memories agreeing on the arguments both programs end with one result array: `netK` of the arguments is
    `netR` of them, the precondition making the features and the weights real. -/
theorem algebraic : Cert.algebraic_KernelIdeal_ReferenceIdeal := by
  intro m ρ m' ρ' hpre hagree
  refine ⟨fun c => Cert.KernelIdeal.Gen.W7 m ρ c (Proc.devRef .tc Cert.KernelIdeal.main_v29),
    Cert.KernelIdeal.Run.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h2, h3, h4, h5⟩ := Cert.Finite.real_of_pre _ _ _ _ _ _ _ _ (hpre c)
  rw [Cert.ReferenceIdeal.Read.val_main_v44_eq, (hagree c).1, (hagree c).2.1, (hagree c).2.2.1, (hagree c).2.2.2.1,
    (hagree c).2.2.2.2.1, (hagree c).2.2.2.2.2.1, (hagree c).2.2.2.2.2.2.1, (hagree c).2.2.2.2.2.2.2,
    Cert.ReferenceIdeal.RefValue.ref_value]
  refine Eq.trans ?_ (Cert.KernelIdeal.KVal.kernel_value m ρ c).symm
  rw [srcCol_eq, dstCol_eq]
  exact (netK_eq_netR (N := 100000) (by decide) _ _ _ _ _ _ _ _ _ h0 h2 h3 h4 h5).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
